-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S5000x128 : Shape := ⟨2, ![5000, 128]⟩
abbrev S1650000x128 : Shape := ⟨2, ![1650000, 128]⟩
abbrev S1x128 : Shape := ⟨2, ![1, 128]⟩
abbrev S50000x64 : Shape := ⟨2, ![50000, 64]⟩
abbrev S5000x64 : Shape := ⟨2, ![5000, 64]⟩
abbrev S1650000x64 : Shape := ⟨2, ![1650000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 84
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S50000x128, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x128, .f32⟩
  | .hbm, ⟨56, _⟩ => ⟨S1650000x1, .f32⟩
  | .hbm, ⟨57, _⟩ => ⟨S1650000x128, .f32⟩
  | .hbm, ⟨58, _⟩ => ⟨S1650000x128, .f32⟩
  | .hbm, ⟨59, _⟩ => ⟨S_, .f32⟩
  | .hbm, ⟨60, _⟩ => ⟨S50000x128, .f32⟩
  | .hbm, ⟨61, _⟩ => ⟨S1650000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x64, .f32⟩
  | .hbm, ⟨66, _⟩ => ⟨S_, .i32⟩
  | .hbm, ⟨67, _⟩ => ⟨S1650000, .i32⟩
  | .hbm, ⟨68, _⟩ => ⟨S1650000, .i1⟩
  | .hbm, ⟨69, _⟩ => ⟨S_, .i32⟩
  | .hbm, ⟨70, _⟩ => ⟨S1650000, .i32⟩
  | .hbm, ⟨71, _⟩ => ⟨S1650000, .i32⟩
  | .hbm, ⟨72, _⟩ => ⟨S1650000, .i32⟩
  | .hbm, ⟨73, _⟩ => ⟨S1650000x1, .i32⟩
  | .hbm, ⟨74, _⟩ => ⟨S1650000x64, .f32⟩
  | .hbm, ⟨75, _⟩ => ⟨S1650000x1, .f32⟩
  | .hbm, ⟨76, _⟩ => ⟨S1650000x64, .f32⟩
  | .hbm, ⟨77, _⟩ => ⟨S1650000x64, .f32⟩
  | .hbm, ⟨78, _⟩ => ⟨S_, .f32⟩
  | .hbm, ⟨79, _⟩ => ⟨S50000x64, .f32⟩
  | .hbm, ⟨80, _⟩ => ⟨S1650000x1, .i32⟩
  | .hbm, ⟨81, _⟩ => ⟨S50000x64, .f32⟩
  | .hbm, ⟨82, _⟩ => ⟨S1x64, .f32⟩
  | .hbm, ⟨83, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x64_S5000x64_1_0_0_1_n_n_wf : DotDims.WF S5000x128 S128x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x64 : Shape := ⟨2, ![50000, 64]⟩
abbrev S1650000x64 : Shape := ⟨2, ![1650000, 64]⟩
abbrev S1x64 : Shape := ⟨2, ![1, 64]⟩
abbrev S50000x1 : Shape := ⟨2, ![50000, 1]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S50000x128, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x128, .f32⟩
  | .hbm, ⟨56, _⟩ => ⟨S1650000x1, .f32⟩
  | .hbm, ⟨57, _⟩ => ⟨S1650000x128, .f32⟩
  | .hbm, ⟨58, _⟩ => ⟨S1650000x128, .f32⟩
  | .hbm, ⟨59, _⟩ => ⟨S_, .f32⟩
  | .hbm, ⟨60, _⟩ => ⟨S50000x128, .f32⟩
  | .hbm, ⟨61, _⟩ => ⟨S1650000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S1650000, .i32⟩
  | .hbm, ⟨72, _⟩ => ⟨S1650000, .i1⟩
  | .hbm, ⟨73, _⟩ => ⟨S_, .i32⟩
  | .hbm, ⟨74, _⟩ => ⟨S1650000, .i32⟩
  | .hbm, ⟨75, _⟩ => ⟨S1650000, .i32⟩
  | .hbm, ⟨76, _⟩ => ⟨S1650000, .i32⟩
  | .hbm, ⟨77, _⟩ => ⟨S1650000x1, .i32⟩
  | .hbm, ⟨78, _⟩ => ⟨S1650000x64, .f32⟩
  | .hbm, ⟨79, _⟩ => ⟨S1650000x1, .f32⟩
  | .hbm, ⟨80, _⟩ => ⟨S1650000x64, .f32⟩
  | .hbm, ⟨81, _⟩ => ⟨S1650000x64, .f32⟩
  | .hbm, ⟨82, _⟩ => ⟨S_, .f32⟩
  | .hbm, ⟨83, _⟩ => ⟨S50000x64, .f32⟩
  | .hbm, ⟨84, _⟩ => ⟨S1650000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .hbm, ⟨89, _⟩ => ⟨S_, .f32⟩
  | .hbm, ⟨90, _⟩ => ⟨S50000, .f32⟩
  | .hbm, ⟨91, _⟩ => ⟨S_, .f32⟩
  | .hbm, ⟨92, _⟩ => ⟨S50000, .f32⟩
  | .hbm, ⟨93, _⟩ => ⟨S50000, .f32⟩
  | .hbm, ⟨94, _⟩ => ⟨S50000x1, .f32⟩
  | .hbm, ⟨95, _⟩ => ⟨S50000x64, .f32⟩
  | .hbm, ⟨96, _⟩ => ⟨S50000x64, .f32⟩
  | .hbm, ⟨97, _⟩ => ⟨S50000x64, .f32⟩
  | .hbm, ⟨98, _⟩ => ⟨S_, .f32⟩
  | .hbm, ⟨99, _⟩ => ⟨S50000, .f32⟩
  | .hbm, ⟨100, _⟩ => ⟨S50000x1, .f32⟩
  | .hbm, ⟨101, _⟩ => ⟨S50000x1, .f32⟩
  | .hbm, ⟨102, _⟩ => ⟨S50000x64, .f32⟩
  | .hbm, ⟨103, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

class Facts : Prop extends Facts₀ where

variable [Facts]
-- ==== Proof.Stages.lean ====
/-
  The four dense stages of the two-layer graph convolution, each as ONE function of whole arrays, written with
  the host operations the reference program applies.

  * `dense1 x w`  : the node features times the first weight matrix, `x · w` (50000×128 by 128×128).
  * `biasRelu a b`: a bias row `b` (1×128) added to every row of `a`, then the positive part, `max (a + b) 0`.
  * `dense2 h w`  : the hidden features times the second weight matrix (50000×128 by 128×64).
  * `biasLogSoftmax a b`: a bias row `b` (1×64) added to every row of `a`, then the row-wise log-softmax
    `z - max z - log (∑ exp (z - max z))`, the maximum and the sum taken along each row of 64 entries.
-/
import proofs.«126051_j44968307589409_1_alg».proof.Proof.Gen.ReferenceIdeal

noncomputable section

namespace Cert.Stages

open Idealize.ShloMosaic Cert.ReferenceIdeal Cert.ReferenceIdeal.Gen

variable {F : FTy → Type} [FloatOps F]

/-- The first dense transform: `x · w`. -/
def dense1 (x : FVec F S50000x128 .f32) (w : FVec F S128x128 .f32) : FVec F S50000x128 .f32 :=
  Host.dotGeneral dot_S50000x128_S128x128_S50000x128_1_0_0_1_n_n none x w

/-- The zero array the positive part is taken against. -/
def zeros128 : FVec F S50000x128 .f32 :=
  broadcastInDim S50000x128 ![] bcast_S_S50000x128 (constant S_ .f32 0x00000000#32)

/-- A bias row added to every row, then the positive part. -/
def biasRelu (a : FVec F S50000x128 .f32) (b : FVec F S1x128 .f32) : FVec F S50000x128 .f32 :=
  maximumf (addf a (broadcastInDim S50000x128 ![0, 1] bcast_S1x128_S50000x128_0_1 b)) zeros128

/-- The second dense transform: `h · w`. -/
def dense2 (h : FVec F S50000x128 .f32) (w : FVec F S128x64 .f32) : FVec F S50000x64 .f32 :=
  Host.dotGeneral dot_S50000x128_S128x64_S50000x64_1_0_0_1_n_n none h w

/-- The maximum of each row (against minus infinity). -/
def rowMax (z : FVec F S50000x64 .f32) : FVec F S50000 .f32 :=
  maximumf (broadcastInDim S50000 ![] bcast_S_S50000 (constant S_ .f32 0xFF800000#32))
    (Host.reduce FloatOps.maximumf z (constant S_ .f32 0xFF800000#32) reducesTo_S50000x64_S50000_d1 h_S_)

/-- Each row shifted by its maximum. -/
def shifted (z : FVec F S50000x64 .f32) : FVec F S50000x64 .f32 :=
  subf z (broadcastInDim S50000x64 ![0, 1] bcast_S50000x1_S50000x64_0_1
    (broadcastInDim S50000x1 ![0] bcast_S50000_S50000x1_0 (rowMax z)))

/-- The logarithm of each shifted row's sum of exponentials, as a column. -/
def logSumExp (s : FVec F S50000x64 .f32) : FVec F S50000x1 .f32 :=
  Host.log (broadcastInDim S50000x1 ![0] bcast_S50000_S50000x1_0
    (Host.reduceAdd (Host.exp s) (constant S_ .f32 0x00000000#32) reducesTo_S50000x64_S50000_d1 h_S_))

/-- The row-wise log-softmax. -/
def logSoftmaxRows (z : FVec F S50000x64 .f32) : FVec F S50000x64 .f32 :=
  subf (shifted z) (broadcastInDim S50000x64 ![0, 1] bcast_S50000x1_S50000x64_0_1 (logSumExp (shifted z)))

/-- A bias row added to every row, then the row-wise log-softmax. -/
def biasLogSoftmax (a : FVec F S50000x64 .f32) (b : FVec F S1x64 .f32) : FVec F S50000x64 .f32 :=
  logSoftmaxRows (addf a (broadcastInDim S50000x64 ![0, 1] bcast_S1x64_S50000x64_0_1 b))

end Cert.Stages

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.Dense1.lean ====
/-
  The first dense transform, region by region to the whole array.

  The kernel runs over ten row blocks of 5000 rows; at each block it multiplies the block of the node features by
  the whole first weight matrix, into a zero accumulator. Over the extended reals a change of float format is the
  identity, so the block's entry `(p, q)` is `∑ k, x (p, k) * w (k, q)`: the same sum the whole-array product has
  at row `5000 * t + p`. The ten blocks tile the 50000 rows, so the array the region leaves is the whole product.
-/
import proofs.«126051_j44968307589409_1_alg».proof.Proof.Gen.KernelIdeal.Frame
import proofs.«126051_j44968307589409_1_alg».proof.Proof.Stages
import proofs.«126051_j44968307589409_1_alg».proof.Proof.LibPlainDot
import Idealize.ShloMosaic.PureOps.Ideal.Laws
import Idealize.ShloMosaic.Lib.ValueIdx
import Idealize.ShloMosaic.Lib.Pipeline.Value

noncomputable section

namespace Cert.KernelIdeal.Dense1

open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

/-! ## The two products at an entry -/

/-- The kernel's dimension numbers are those of the plain 5000×128 by 128×128 product. -/
theorem kernel_dims : dot_S5000x128_S128x128_S5000x128_1_0_0_1_n_n = DotDims.plain 5000 128 128 := rfl

/-- The reference's dimension numbers are those of the plain 50000×128 by 128×128 product. -/
theorem reference_dims :
    Cert.ReferenceIdeal.dot_S50000x128_S128x128_S50000x128_1_0_0_1_n_n = DotDims.plain 50000 128 128 := rfl

/-- The block's product at entry `(p, q)`: the row `p` of the block against the column `q` of the weights. -/
theorem payload_apply (x0 : Vec Ideal S5000x128 .f32) (x1 : Vec Ideal S128x128 .f32) (p : Fin 5000) (q : Fin 128) :
    k0_pay1 (F := Ideal) x0 x1 (ix2 p q) = ∑ k : Fin 128, (x0 (ix2 p k) * x1 (ix2 k q) : EReal) := by
  unfold k0_pay1
  show FloatOps.matmul dot_S5000x128_S128x128_S5000x128_1_0_0_1_n_n none
      (truncf (F := Ideal) .bf16 x0 bitsLt_bf16_f32) (truncf (F := Ideal) .bf16 x1 bitsLt_bf16_f32)
      (constant (F := Ideal) S5000x128 .f32 0x00000000#32) (ix2 p q) = _
  rw [kernel_dims]
  exact Cert.Lib.PlainDot.matmul_zero_apply none _ _ p q

/-- The whole-array product at entry `(P, q)`. -/
theorem dense1_apply (x : FVec Ideal Cert.ReferenceIdeal.S50000x128 .f32) (w : FVec Ideal Cert.ReferenceIdeal.S128x128 .f32)
    (P : Fin 50000) (q : Fin 128) :
    Cert.Stages.dense1 (F := Ideal) x w (ix2 P q) = ∑ k : Fin 128, (x (ix2 P k) * w (ix2 k q) : EReal) := by
  unfold Cert.Stages.dense1
  show FloatOps.dotGeneral Cert.ReferenceIdeal.dot_S50000x128_S128x128_S50000x128_1_0_0_1_n_n none .single x w (ix2 P q) = _
  rw [reference_dims]
  exact Cert.Lib.PlainDot.dotGeneral_apply none .single x w P q

/-! ## From the blocks to the array -/

/-- The zero offsets of a whole-buffer access, however they are spelt. -/
theorem zero_offsets : (![0, 0] : Fin 2 → Nat) = fun _ => 0 := funext fun a => by fin_cases a <;> rfl

/-- The printed index maps over the grid: the feature block and the output block sit at block row `t`, the weights
    are staged whole. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A point of the grid is one of ten. -/
theorem point_lt (t : Fin cfg0.N) : t.val < 10 := by
  exact lt_of_lt_of_eq t.isLt N_0

/-- THE BLOCK OF THE PRODUCT: when the first operand is rows `5000 T … 5000 T + 4999` of `A` and the second is `W`,
    the block's product at `(p, q)` is the whole product at row `5000 T + p`. -/
theorem block_apply (T : Nat) (hT : T < 10) (x0 : Vec Ideal S5000x128 .f32) (x1 : Vec Ideal S128x128 .f32)
    (A : FVec Ideal Cert.ReferenceIdeal.S50000x128 .f32) (W : FVec Ideal Cert.ReferenceIdeal.S128x128 .f32)
    (h0 : ∀ (p : Fin 5000) (k : Fin 128), x0 (ix2 p k) = A (ix2 (⟨T * 5000 + p.val, by omega⟩ : Fin 50000) k))
    (h1 : ∀ (k q : Fin 128), x1 (ix2 k q) = W (ix2 k q))
    (p : Fin 5000) (q : Fin 128) :
    k0_pay1 (F := Ideal) x0 x1 (ix2 p q)
      = Cert.Stages.dense1 (F := Ideal) A W (ix2 (⟨T * 5000 + p.val, by omega⟩ : Fin 50000) q) := by
  rw [payload_apply, dense1_apply]
  exact Finset.sum_congr rfl fun k _ => by rw [h0, h1]

/-- WHAT POINT `t` WRITES BACK is block `t` of the whole product of the arrays as the region finds them. -/
theorem flushed_eq (c : Dev nD) (t : Fin cfg0.N) :
    (dat0 (F := Ideal) V c).flushed 2 t
      = ((cfg0.win 2).blk t).view.read (Elt Ideal) (Cert.Stages.dense1 (F := Ideal) (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e00, e01, e10, e11, e20, e21⟩ := index_facts t
  have ht := point_lt t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
    = Cert.Stages.dense1 (F := Ideal) (V c main_arg0) (V c main_arg2) (((cfg0.win 2).blk t).view.emb (ix2 p q))
  have hemb : ((cfg0.win 2).blk t).view.emb (ix2 p q) = ix2 (⟨t.val * 5000 + p.val, by omega⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  rw [hemb]
  refine block_apply t.val ht _ _ _ _ (fun p k => ?_) (fun k q => ?_) p q
  · show V c main_arg0 (((cfg0.win 0).blk t).view.emb (ix2 p k)) = V c main_arg0 (ix2 (⟨t.val * 5000 + p.val, by omega⟩ : Fin 50000) k)
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c main_arg2 (((cfg0.win 1).blk t).view.emb (ix2 k q)) = V c main_arg2 (ix2 k q)
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- THE BLOCKS TILE THE ARRAY: row `r` lies in the block of point `r / 5000`. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hlt : (i 0).val / 5000 < cfg0.N := lt_of_lt_of_eq (by omega : (i 0).val / 5000 < 10) N_0.symm
  obtain ⟨-, -, -, -, e20, e21⟩ := index_facts ⟨(i 0).val / 5000, hlt⟩
  refine ⟨⟨(i 0).val / 5000, hlt⟩, flush0_2 _, ?_⟩
  rw [mem_blk]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    rw [e20]
    show (i 0).val / 5000 * 5000 ≤ (i 0).val ∧ (i 0).val < (i 0).val / 5000 * 5000 + 5000
    omega
  | ⟨1, _⟩ =>
    show win0_2.index ⟨(i 0).val / 5000, hlt⟩ (1 : Fin 2) * 128 ≤ (i 1).val
      ∧ (i 1).val < win0_2.index ⟨(i 0).val / 5000, hlt⟩ (1 : Fin 2) * 128 + 128
    rw [e21]
    omega

/-- THE ARRAY the region leaves is the whole product of the arrays it finds. -/
theorem array_eq (c : Dev nD) :
    (dat0 (F := Ideal) V c).arrAt 2 cfg0.N = Cert.Stages.dense1 (F := Ideal) (V c main_arg0) (V c main_arg2) :=
  (dat0 (F := Ideal) V c).arrAt_eq_of_cover 2 _ (fun t _ => flushed_eq V c t) cover

end Cert.KernelIdeal.Dense1

end
-- ==== Proof.BiasRelu.lean ====
import proofs.«126051_j44968307589409_1_alg».proof.Proof.Gen.KernelIdeal.Frame
import proofs.«126051_j44968307589409_1_alg».proof.Proof.Stages
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.BiasRelu

open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

/-! ## The row formula: a bias row added to a row, then the positive part -/

/-- The kernel's payload at row `p`, column `q` of a block: the block's entry plus the bias row's entry at `q`,
    then the maximum with zero. -/
theorem payload_apply (x0 : Vec Ideal S5000x128 .f32) (x1 : Vec Ideal S1x128 .f32) (p : Fin 5000) (q : Fin 128) :
    k1_pay1 (F := Ideal) x0 x1 (ix2 p q)
      = max (x0 (ix2 p q) + x1 (ix2 (0 : Fin 1) q)) (Scalar.ofBits (F := Ideal) .f32 0x00000000#32) := by
  unfold k1_pay1
  rw [shapeCast_self, shapeCast_self]
  show max (x0 (ix2 p q) + broadcastTo S5000x128 x1 broadcasts_S1x128_S5000x128 (ix2 p q)) _ = _
  rw [broadcastTo_1b_ab_apply]
  rfl

/-- The stage's array at row `P`, column `q`: the same formula of the array's entry and the bias row's entry. -/
theorem stage_apply (a : FVec Ideal S50000x128 .f32) (b : FVec Ideal S1x128 .f32) (P : Fin 50000) (q : Fin 128) :
    Cert.Stages.biasRelu (F := Ideal) a b (ix2 P q)
      = max (a (ix2 P q) + b (ix2 (0 : Fin 1) q)) (Scalar.ofBits (F := Ideal) .f32 0x00000000#32) := by
  unfold Cert.Stages.biasRelu Cert.Stages.zeros128
  show max (a (ix2 P q) + broadcastInDim Cert.ReferenceIdeal.S50000x128 ![0, 1] Cert.ReferenceIdeal.Gen.bcast_S1x128_S50000x128_0_1 b (ix2 P q)) _ = _
  rw [broadcastInDim_apply ![0, 1] Cert.ReferenceIdeal.Gen.bcast_S1x128_S50000x128_0_1 b (ix2 P q) (ix2 (0 : Fin 1) q) (fun ax => by
    match ax with
    | ⟨0, _⟩ => rfl
    | ⟨1, _⟩ => rfl)]
  rfl

/-! ## What each point writes back -/

/-- The zero offsets of a whole-block access. -/
theorem zero_offsets : (![0, 0] : Fin 2 → Nat) = fun _ => 0 := funext fun a => by fin_cases a <;> rfl

/-- The printed index maps over the grid: the feature window and the output window sit at block `(t, 0)`, the bias
    row at block `(0, 0)`. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `p` of the feature block at point `t` is row `t * 5000 + p` of the array. -/
theorem emb_features (t : Fin cfg1.N) (p : Fin 5000) (q : Fin 128) (h : t.val * 5000 + p.val < 50000) :
    ((cfg1.win 0).blk t).view.emb (ix2 p q) = ix2 (⟨t.val * 5000 + p.val, h⟩ : Fin 50000) q := by
  obtain ⟨e0, e1, -, -, -, -⟩ := index_facts t
  funext a; apply Fin.ext
  match a with
  | ⟨0, _⟩ => show win1_0.index t (0 : Fin 2) * 5000 + 1 * p.val = t.val * 5000 + p.val; omega
  | ⟨1, _⟩ => show win1_0.index t (1 : Fin 2) * 128 + 1 * q.val = q.val; omega

/-- The bias row's block is the whole row at every point. -/
theorem emb_bias (t : Fin cfg1.N) (q : Fin 128) :
    ((cfg1.win 1).blk t).view.emb (ix2 (0 : Fin 1) q) = ix2 (0 : Fin 1) q := by
  obtain ⟨-, -, e2, e3, -, -⟩ := index_facts t
  funext a; apply Fin.ext
  match a with
  | ⟨0, _⟩ => show win1_1.index t (0 : Fin 2) * 1 + 1 * 0 = 0; omega
  | ⟨1, _⟩ => show win1_1.index t (1 : Fin 2) * 128 + 1 * q.val = q.val; omega

/-- Row `p` of the output block at point `t` is row `t * 5000 + p` of the array. -/
theorem emb_output (t : Fin cfg1.N) (p : Fin 5000) (q : Fin 128) (h : t.val * 5000 + p.val < 50000) :
    ((cfg1.win 2).blk t).view.emb (ix2 p q) = ix2 (⟨t.val * 5000 + p.val, h⟩ : Fin 50000) q := by
  obtain ⟨-, -, -, -, e4, e5⟩ := index_facts t
  funext a; apply Fin.ext
  match a with
  | ⟨0, _⟩ => show win1_2.index t (0 : Fin 2) * 5000 + 1 * p.val = t.val * 5000 + p.val; omega
  | ⟨1, _⟩ => show win1_2.index t (1 : Fin 2) * 128 + 1 * q.val = q.val; omega

/-- What point `t` writes back is block `t` of the stage's array of the arrays the region finds. -/
theorem flushed_eq (c : Dev nD) (t : Fin cfg1.N) :
    (dat1 (F := Ideal) V c).flushed 2 t
      = ((cfg1.win 2).blk t).view.read (Elt Ideal)
          (Cert.Stages.biasRelu (F := Ideal) (V c main_v43) (V c main_v44)) := by
  show (cfg1.win 2).cut (grid1.coords t) ((dat1 (F := Ideal) V c).after 2 t) = _
  rw [after1_2]
  unfold out1_2
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), j = ix2 p q := ⟨j 0, j 1, eq_ix2 j⟩
  have ht : t.val < 10 := lt_of_lt_of_eq t.isLt N_1
  have hp : p.val < 5000 := p.isLt
  have hP : t.val * 5000 + p.val < 50000 := by omega
  show k1_pay1 (F := Ideal) (iblk1 V c 0 t) (iblk1 V c 1 t) (ix2 p q)
      = Cert.Stages.biasRelu (F := Ideal) (V c main_v43) (V c main_v44) (((cfg1.win 2).blk t).view.emb (ix2 p q))
  rw [emb_output t p q hP, stage_apply, payload_apply]
  have h0 : iblk1 V c 0 t (ix2 p q) = V c main_v43 (ix2 (⟨t.val * 5000 + p.val, hP⟩ : Fin 50000) q) := by
    show V c main_v43 (((cfg1.win 0).blk t).view.emb (ix2 p q)) = _
    rw [emb_features t p q hP]
  have h1 : iblk1 V c 1 t (ix2 (0 : Fin 1) q) = V c main_v44 (ix2 (0 : Fin 1) q) := by
    show V c main_v44 (((cfg1.win 1).blk t).view.emb (ix2 (0 : Fin 1) q)) = _
    rw [emb_bias t q]
  rw [h0, h1]

/-! ## From blocks to the array -/

/-- An index of the array is in point `t`'s output block iff each coordinate is in the block's range on its axis. -/
theorem mem_output_block (t : Fin cfg1.N) (i : S50000x128.Idx) :
    i ∈ ((cfg1.win 2).blk t).view.set
      ↔ ∀ a : Fin 2, win1_2.index t a * S5000x128.size a ≤ (i a).val
          ∧ (i a).val < win1_2.index t a * S5000x128.size a + S5000x128.size a := by
  show i ∈ ((View.whole main_v45).slice (win1_2.rect t)).set ↔ _
  rw [View.set_slice_whole, Rect.mem_set_unit]
  exact Iff.rfl

/-- Every index of the array lies in the output block of the point its row falls in: row `r` in block `r / 5000`. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : (i 0).val / 5000 < cfg1.N := by
    show (i 0).val / 5000 < grid1.N
    rw [N_1]; omega
  obtain ⟨-, -, -, -, e4, e5⟩ := index_facts ⟨(i 0).val / 5000, hN⟩
  have e4' : win1_2.index ⟨(i 0).val / 5000, hN⟩ (0 : Fin 2) = (i 0).val / 5000 := e4
  refine ⟨⟨(i 0).val / 5000, hN⟩, flush1_2 _, ?_⟩
  rw [mem_output_block]
  intro a
  match a with
  | ⟨0, _⟩ =>
    show win1_2.index ⟨(i 0).val / 5000, hN⟩ (0 : Fin 2) * 5000 ≤ (i 0).val
      ∧ (i 0).val < win1_2.index ⟨(i 0).val / 5000, hN⟩ (0 : Fin 2) * 5000 + 5000
    omega
  | ⟨1, _⟩ =>
    show win1_2.index ⟨(i 0).val / 5000, hN⟩ (1 : Fin 2) * 128 ≤ (i 1).val
      ∧ (i 1).val < win1_2.index ⟨(i 0).val / 5000, hN⟩ (1 : Fin 2) * 128 + 128
    omega

/-- The region's output array is the stage's array of the two arrays the region finds. -/
theorem array_eq (c : Dev nD) :
    (dat1 (F := Ideal) V c).arrAt 2 cfg1.N = Cert.Stages.biasRelu (F := Ideal) (V c main_v43) (V c main_v44) :=
  (dat1 (F := Ideal) V c).arrAt_eq_of_cover 2 _ (fun t _ => flushed_eq V c t) cover

end Cert.KernelIdeal.BiasRelu

end
-- ==== Proof.Dense2.lean ====
/-
  The second dense transform, region by region to the whole array.

  The kernel runs over ten row blocks of 5000 rows; at each block it multiplies the block of the hidden features by
  the whole second weight matrix (128×64), into a zero accumulator; the block is first cast to its own shape, which
  changes nothing. Over the extended reals a change of float format is the identity, so the block's entry `(p, q)`
  is `∑ k, h (p, k) * w (k, q)`: the same sum the whole-array product has at row `5000 * t + p`. The ten blocks
  tile the 50000 rows, so the array the region leaves is the whole product.
-/
import proofs.«126051_j44968307589409_1_alg».proof.Proof.Gen.KernelIdeal.Frame
import proofs.«126051_j44968307589409_1_alg».proof.Proof.Stages
import proofs.«126051_j44968307589409_1_alg».proof.Proof.LibPlainDot
import Idealize.ShloMosaic.PureOps.Ideal.Laws
import Idealize.ShloMosaic.Lib.ValueIdx
import Idealize.ShloMosaic.Lib.Pipeline.Value

noncomputable section

namespace Cert.KernelIdeal.Dense2

open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

/-! ## The two products at an entry -/

/-- The kernel's dimension numbers are those of the plain 5000×128 by 128×64 product. -/
theorem kernel_dims : dot_S5000x128_S128x64_S5000x64_1_0_0_1_n_n = DotDims.plain 5000 128 64 := rfl

/-- The reference's dimension numbers are those of the plain 50000×128 by 128×64 product. -/
theorem reference_dims :
    Cert.ReferenceIdeal.dot_S50000x128_S128x64_S50000x64_1_0_0_1_n_n = DotDims.plain 50000 128 64 := rfl

/-- The block's product at entry `(p, q)`: the row `p` of the block against the column `q` of the weights. -/
theorem payload_apply (x0 : Vec Ideal S5000x128 .f32) (x1 : Vec Ideal S128x64 .f32) (p : Fin 5000) (q : Fin 64) :
    k2_pay1 (F := Ideal) x0 x1 (ix2 p q) = ∑ k : Fin 128, (x0 (ix2 p k) * x1 (ix2 k q) : EReal) := by
  unfold k2_pay1
  show FloatOps.matmul dot_S5000x128_S128x64_S5000x64_1_0_0_1_n_n none
      (truncf (F := Ideal) .bf16 (shapeCast S5000x128 x0 shapeCasts_S5000x128_S5000x128) bitsLt_bf16_f32)
      (truncf (F := Ideal) .bf16 x1 bitsLt_bf16_f32)
      (constant (F := Ideal) S5000x64 .f32 0x00000000#32) (ix2 p q) = _
  rw [shapeCast_self, kernel_dims]
  exact Cert.Lib.PlainDot.matmul_zero_apply none _ _ p q

/-- The whole-array product at entry `(P, q)`. -/
theorem dense2_apply (h : FVec Ideal Cert.ReferenceIdeal.S50000x128 .f32) (w : FVec Ideal Cert.ReferenceIdeal.S128x64 .f32)
    (P : Fin 50000) (q : Fin 64) :
    Cert.Stages.dense2 (F := Ideal) h w (ix2 P q) = ∑ k : Fin 128, (h (ix2 P k) * w (ix2 k q) : EReal) := by
  unfold Cert.Stages.dense2
  show FloatOps.dotGeneral Cert.ReferenceIdeal.dot_S50000x128_S128x64_S50000x64_1_0_0_1_n_n none .single h w (ix2 P q) = _
  rw [reference_dims]
  exact Cert.Lib.PlainDot.dotGeneral_apply none .single h w P q

/-! ## From the blocks to the array -/

/-- The zero offsets of a whole-buffer access, however they are spelt. -/
theorem zero_offsets : (![0, 0] : Fin 2 → Nat) = fun _ => 0 := funext fun a => by fin_cases a <;> rfl

/-- The printed index maps over the grid: the feature block and the output block sit at block row `t`, the weights
    are staged whole. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A point of the grid is one of ten. -/
theorem point_lt (t : Fin cfg2.N) : t.val < 10 := lt_of_lt_of_eq t.isLt N_2

/-- THE BLOCK OF THE PRODUCT: when the first operand is rows `5000 T … 5000 T + 4999` of `A` and the second is `W`,
    the block's product at `(p, q)` is the whole product at row `5000 T + p`. -/
theorem block_apply (T : Nat) (hT : T < 10) (x0 : Vec Ideal S5000x128 .f32) (x1 : Vec Ideal S128x64 .f32)
    (A : FVec Ideal Cert.ReferenceIdeal.S50000x128 .f32) (W : FVec Ideal Cert.ReferenceIdeal.S128x64 .f32)
    (h0 : ∀ (p : Fin 5000) (k : Fin 128), x0 (ix2 p k) = A (ix2 (⟨T * 5000 + p.val, by omega⟩ : Fin 50000) k))
    (h1 : ∀ (k : Fin 128) (q : Fin 64), x1 (ix2 k q) = W (ix2 k q))
    (p : Fin 5000) (q : Fin 64) :
    k2_pay1 (F := Ideal) x0 x1 (ix2 p q)
      = Cert.Stages.dense2 (F := Ideal) A W (ix2 (⟨T * 5000 + p.val, by omega⟩ : Fin 50000) q) := by
  rw [payload_apply, dense2_apply]
  exact Finset.sum_congr rfl fun k _ => by rw [h0, h1]

/-- WHAT POINT `t` WRITES BACK is block `t` of the whole product of the arrays as the region finds them. -/
theorem flushed_eq (c : Dev nD) (t : Fin cfg2.N) :
    (dat2 (F := Ideal) V c).flushed 2 t
      = ((cfg2.win 2).blk t).view.read (Elt Ideal) (Cert.Stages.dense2 (F := Ideal) (V c main_v45) (V c main_arg4)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x64) zero_offsets]
  obtain ⟨e00, e01, e10, e11, e20, e21⟩ := index_facts t
  have ht := point_lt t
  funext j
  obtain ⟨p, q, rfl⟩ : ∃ (p : Fin 5000) (q : Fin 64), j = ix2 p q := ⟨j 0, j 1, eq_ix2 j⟩
  show k2_pay1 (F := Ideal) (iblk2 V c 0 t) (iblk2 V c 1 t) (ix2 p q)
    = Cert.Stages.dense2 (F := Ideal) (V c main_v45) (V c main_arg4) (((cfg2.win 2).blk t).view.emb (ix2 p q))
  have hemb : ((cfg2.win 2).blk t).view.emb (ix2 p q) = ix2 (⟨t.val * 5000 + p.val, by omega⟩ : Fin 50000) q := by
    funext a; apply Fin.ext
    match a with
    | ⟨0, _⟩ => show win2_2.index t (0 : Fin 2) * 5000 + 1 * p.val = t.val * 5000 + p.val; omega
    | ⟨1, _⟩ => show win2_2.index t (1 : Fin 2) * 64 + 1 * q.val = q.val; omega
  rw [hemb]
  refine block_apply t.val ht _ _ _ _ (fun p k => ?_) (fun k q => ?_) p q
  · show V c main_v45 (((cfg2.win 0).blk t).view.emb (ix2 p k)) = V c main_v45 (ix2 (⟨t.val * 5000 + p.val, by omega⟩ : Fin 50000) k)
    refine congrArg (V c main_v45) (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  · show V c main_arg4 (((cfg2.win 1).blk t).view.emb (ix2 k q)) = V c main_arg4 (ix2 k q)
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 64 + 1 * q.val = q.val; omega

/-- An index of the array is in point `t`'s block iff each coordinate is in the block's range on its axis. -/
theorem mem_blk (t : Fin cfg2.N) (i : S50000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v46).slice (win2_2.rect t)).set ↔ _
  rw [View.set_slice_whole, Rect.mem_set_unit]
  exact Iff.rfl

/-- THE BLOCKS TILE THE ARRAY: row `r` lies in the block of point `r / 5000`. -/
theorem cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hlt : (i 0).val / 5000 < cfg2.N := lt_of_lt_of_eq (by omega : (i 0).val / 5000 < 10) N_2.symm
  obtain ⟨-, -, -, -, e20, e21⟩ := index_facts ⟨(i 0).val / 5000, hlt⟩
  refine ⟨⟨(i 0).val / 5000, hlt⟩, flush2_2 _, ?_⟩
  rw [mem_blk]
  intro a
  match a with
  | ⟨0, _⟩ =>
    show win2_2.index ⟨(i 0).val / 5000, hlt⟩ (0 : Fin 2) * 5000 ≤ (i 0).val
      ∧ (i 0).val < win2_2.index ⟨(i 0).val / 5000, hlt⟩ (0 : Fin 2) * 5000 + 5000
    rw [e20]
    show (i 0).val / 5000 * 5000 ≤ (i 0).val ∧ (i 0).val < (i 0).val / 5000 * 5000 + 5000
    omega
  | ⟨1, _⟩ =>
    show win2_2.index ⟨(i 0).val / 5000, hlt⟩ (1 : Fin 2) * 64 ≤ (i 1).val
      ∧ (i 1).val < win2_2.index ⟨(i 0).val / 5000, hlt⟩ (1 : Fin 2) * 64 + 64
    rw [e21]
    omega

/-- THE ARRAY the region leaves is the whole product of the arrays it finds. -/
theorem array_eq (c : Dev nD) :
    (dat2 (F := Ideal) V c).arrAt 2 cfg2.N = Cert.Stages.dense2 (F := Ideal) (V c main_v45) (V c main_arg4) :=
  (dat2 (F := Ideal) V c).arrAt_eq_of_cover 2 _ (fun t _ => flushed_eq V c t) cover

end Cert.KernelIdeal.Dense2

end
-- ==== Proof.BiasLogSoftmax.lean ====
import proofs.«126051_j44968307589409_1_alg».proof.Proof.Gen.KernelIdeal.Frame
import proofs.«126051_j44968307589409_1_alg».proof.Proof.Stages
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.BiasLogSoftmax

open Idealize.ShloMosaic Idealize.ShloMosaic.TcCoe Idealize.SL.Sem Cert.KernelIdeal Cert.KernelIdeal.Gen
open Idealize.ShloMosaic.ValueIdx
open scoped BigOperators

/-! ## The row function -/

/-- The log-softmax of one row of 64 extended reals, `z q - M - log (∑ exp (z k - M))`, where `M` is the row's
    maximum taken as the fold of `max` from minus infinity. -/
def rowLS (z : Fin 64 → EReal) (q : Fin 64) : EReal :=
  (z q - (Finset.univ : Finset (Fin 64)).fold max (Ideal.ofBits .f32 0xFF800000#32) z)
    - Ideal.log (∑ k : Fin 64, Ideal.exp (z k - (Finset.univ : Finset (Fin 64)).fold max (Ideal.ofBits .f32 0xFF800000#32) z))

/-! ## Columns: a vector as a column, a column along its rows -/

section Layout
variable {α : Type}

/-- A vector of `a` entries cast to a column reads, at `(p, u)`, entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column broadcast along its rows reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A reduction along the rows -/

/-- The reduced index `p` with column `k` put back is `(p, k)`. -/
theorem lift_ix2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A lane maximum along the rows, from minus infinity, read at row `p`: the fold of `max` over the row. -/
theorem rowMax_lanes {a : ℕ} (z : FVec Ideal ⟨2, ![a, 64]⟩ .f32) (h : (⟨2, ![a, 64]⟩ : Shape).Reduces [1] (⟨1, ![a]⟩ : Shape))
    (hφ : FKind.Formats .f32) (hacc : (0xFF800000#32 : BitVec 32) = 0xFF800000#32) (p : Fin a) :
    multiReduction .maximumf [1] ⟨1, ![a]⟩ z 0xFF800000#32 h hφ hacc (ix1 p)
      = (Finset.univ : Finset (Fin 64)).fold max (Ideal.ofBits .f32 0xFF800000#32) (fun k => z (ix2 p k)) := by
  refine (Ideal.multiReduction_maximumf_single z 0xFF800000#32 h hφ hacc (ix1 p)).trans ?_
  have hf : (z ∘ h.lift (ix1 p)) = fun k : Fin 64 => z (ix2 p k) := funext fun k => congrArg z (lift_ix2 h p k)
  exact congrArg (fun f => Finset.fold max (Ideal.ofBits .f32 0xFF800000#32) f (Finset.univ : Finset (Fin 64))) hf

/-- A lane sum along the rows read at row `p`: the sum over the row. -/
theorem rowSum_lanes {a : ℕ} (z : FVec Ideal ⟨2, ![a, 64]⟩ .f32) (h : (⟨2, ![a, 64]⟩ : Shape).Reduces [1] (⟨1, ![a]⟩ : Shape))
    (hφ : FKind.Formats .f32) (hacc : (0x00000000#32 : BitVec 32) = 0x00000000#32) (p : Fin a) :
    multiReduction .add [1] ⟨1, ![a]⟩ z 0x00000000#32 h hφ hacc (ix1 p) = ∑ k : Fin 64, z (ix2 p k) := by
  refine (Ideal.multiReduction_add_single z 0x00000000#32 h hφ hacc (ix1 p)).trans ?_
  exact Finset.sum_congr rfl fun k _ => congrArg z (lift_ix2 h p k)

/-! ## The exponential and the logarithm at an index -/

theorem exp_apply {s : Shape} (v : FVec Ideal s .f32) (i : s.Idx) : exp v i = Ideal.exp (v i) := rfl
theorem log_apply {s : Shape} (v : FVec Ideal s .f32) (i : s.Idx) : log v i = Ideal.log (v i) := rfl

/-! ## The kernel's payload at an index -/

/-- The kernel's payload at `(p, q)`: the log-softmax of row `p` of the block plus the bias row, at column `q`. -/
theorem pay_apply (x0 : Vec Ideal S5000x64 .f32) (x1 : Vec Ideal S1x64 .f32) (p : Fin 5000) (q : Fin 64) :
    k3_pay1 (F := Ideal) x0 x1 (ix2 p q) = rowLS (fun k => x0 (ix2 p k) + x1 (ix2 (0 : Fin 1) k)) q := by
  unfold k3_pay1
  simp only [shapeCast_self]
  simp only [subf_apply, log_apply, broadcastTo_a1_ab_apply, shapeCast_a_a1_apply]
  rw [rowSum_lanes]
  simp only [exp_apply, subf_apply, broadcastTo_a1_ab_apply, shapeCast_a_a1_apply]
  rw [rowMax_lanes]
  simp only [addf_apply, broadcastTo_1b_ab_apply]
  unfold rowLS
  rfl

/-! ## The host's broadcasts and reductions at an index -/

section HostLayout
variable {α : Type}

/-- One row broadcast over many reads, at `(P, c)`, the row's entry `c`. -/
theorem bcastRow_apply {A B : ℕ} (h : (⟨2, ![1, B]⟩ : Shape).BroadcastsInDim ⟨2, ![A, B]⟩ (![0, 1] : Fin 2 → Fin (⟨2, ![A, B]⟩ : Shape).rank))
    (v : (⟨2, ![1, B]⟩ : Shape).Idx → α) (P : Fin A) (c : Fin B) :
    broadcastInDim ⟨2, ![A, B]⟩ ![0, 1] h v (ix2 P c) = v (ix2 (0 : Fin 1) c) := by
  refine broadcastInDim_apply _ h v (ix2 P c) (ix2 (0 : Fin 1) c) fun ax => ?_
  match ax with
  | ⟨0, _⟩ => rfl
  | ⟨1, _⟩ =>
    show c.val = if B = 1 then 0 else c.val
    split
    · have := c.isLt; omega
    · rfl

/-- A column broadcast along its rows reads, at `(P, c)`, the column's entry `P`. -/
theorem bcastKeep_apply {A B : ℕ} (h : (⟨2, ![A, 1]⟩ : Shape).BroadcastsInDim ⟨2, ![A, B]⟩ (![0, 1] : Fin 2 → Fin (⟨2, ![A, B]⟩ : Shape).rank))
    (v : (⟨2, ![A, 1]⟩ : Shape).Idx → α) (P : Fin A) (c : Fin B) :
    broadcastInDim ⟨2, ![A, B]⟩ ![0, 1] h v (ix2 P c) = v (ix2 P (0 : Fin 1)) := by
  refine broadcastInDim_apply _ h v (ix2 P c) (ix2 P (0 : Fin 1)) fun ax => ?_
  match ax with
  | ⟨0, _⟩ =>
    show P.val = if A = 1 then 0 else P.val
    split
    · have := P.isLt; omega
    · rfl
  | ⟨1, _⟩ => rfl

/-- A vector as a column reads, at `(P, u)`, entry `P`. -/
theorem bcastCol_apply {A : ℕ} (h : (⟨1, ![A]⟩ : Shape).BroadcastsInDim ⟨2, ![A, 1]⟩ (![0] : Fin 1 → Fin (⟨2, ![A, 1]⟩ : Shape).rank))
    (v : (⟨1, ![A]⟩ : Shape).Idx → α) (P : Fin A) (u : Fin 1) :
    broadcastInDim ⟨2, ![A, 1]⟩ ![0] h v (ix2 P u) = v (ix1 P) := by
  refine broadcastInDim_apply _ h v (ix2 P u) (ix1 P) fun ax => ?_
  match ax with
  | ⟨0, _⟩ =>
    show P.val = if A = 1 then 0 else P.val
    split
    · have := P.isLt; omega
    · rfl

/-- A scalar broadcast to any shape reads the scalar everywhere. -/
theorem bcastScalar_apply {t : Shape} (h : (⟨0, ![]⟩ : Shape).BroadcastsInDim t (![] : Fin 0 → Fin t.rank))
    (v : (⟨0, ![]⟩ : Shape).Idx → α) (j : t.Idx) : broadcastInDim t ![] h v j = v ix0 := by
  unfold broadcastInDim
  exact congrArg v (funext fun ax => ax.elim0)

end HostLayout

/-- The host's maximum along the rows, from minus infinity, at row `P`: the fold of `max` over the row. -/
theorem rowMax_host {A : ℕ} (z : FVec Ideal ⟨2, ![A, 64]⟩ .f32) (h' : (⟨2, ![A, 64]⟩ : Shape).ReducesTo [1] (⟨1, ![A]⟩ : Shape))
    (h : (⟨2, ![A, 64]⟩ : Shape).Reduces [1] (⟨1, ![A]⟩ : Shape)) (hu : 0 < (⟨0, ![]⟩ : Shape).numel) (P : Fin A) :
    Host.reduce FloatOps.maximumf z (constant (F := Ideal) (⟨0, ![]⟩ : Shape) .f32 0xFF800000#32) h' hu (ix1 P)
      = (Finset.univ : Finset (Fin 64)).fold max (Ideal.ofBits .f32 0xFF800000#32) (fun k => z (ix2 P k)) := by
  rw [Host.reduce_eq_fold_single FloatOps.maximumf z _ h' h hu]
  have hf : (z ∘ h.lift (ix1 P)) = fun k : Fin 64 => z (ix2 P k) := funext fun k => congrArg z (lift_ix2 h P k)
  exact congrArg (fun f => Finset.fold max (Ideal.ofBits .f32 0xFF800000#32) f (Finset.univ : Finset (Fin 64))) hf

/-- The host's sum along the rows, from zero, at row `P`: the sum over the row. -/
theorem rowSum_host {A : ℕ} (x : FVec Ideal ⟨2, ![A, 64]⟩ .f32) (h' : (⟨2, ![A, 64]⟩ : Shape).ReducesTo [1] (⟨1, ![A]⟩ : Shape))
    (h : (⟨2, ![A, 64]⟩ : Shape).Reduces [1] (⟨1, ![A]⟩ : Shape)) (hu : 0 < (⟨0, ![]⟩ : Shape).numel) (P : Fin A) :
    Host.reduceAdd x (constant (F := Ideal) (⟨0, ![]⟩ : Shape) .f32 0x00000000#32) h' hu (ix1 P) = ∑ k : Fin 64, x (ix2 P k) := by
  show Ideal.hostReduceAdd h' x (Ideal.ofBits .f32 0x00000000#32) (ix1 P) = _
  rw [Ideal.hostReduceAdd_single h' h, Ideal.ofBits_zero_f32, zero_add]
  exact Finset.sum_congr rfl fun k _ => congrArg x (lift_ix2 h P k)

theorem hostExp_apply {s : Shape} (v : FVec Ideal s .f32) (i : s.Idx) : Host.exp v i = Ideal.exp (v i) := rfl
theorem hostLog_apply {s : Shape} (v : FVec Ideal s .f32) (i : s.Idx) : Host.log v i = Ideal.log (v i) := rfl

/-- Minus infinity is the least extended real. -/
theorem max_negInf (x : EReal) : max (Ideal.ofBits .f32 0xFF800000#32) x = x := by
  simp [Ideal.ofBits, Ideal.ieee]

/-! ## The reference's stage at an index -/

/-- Dropping the columns of a `50000 × 64` array leaves its `50000` rows. -/
theorem reduces_rows : (⟨2, ![50000, 64]⟩ : Shape).Reduces [1] (⟨1, ![50000]⟩ : Shape) := by decide

/-- A row shifted by its maximum, at `(P, k)`. -/
theorem shifted_apply (z : FVec Ideal Cert.ReferenceIdeal.S50000x64 .f32) (P : Fin 50000) (k : Fin 64) :
    Cert.Stages.shifted (F := Ideal) z (ix2 P k)
      = z (ix2 P k) - (Finset.univ : Finset (Fin 64)).fold max (Ideal.ofBits .f32 0xFF800000#32) (fun j => z (ix2 P j)) := by
  unfold Cert.Stages.shifted Cert.Stages.rowMax
  rw [subf_apply, bcastKeep_apply, bcastCol_apply, maximumf_apply, bcastScalar_apply, constant_apply, max_negInf,
    rowMax_host _ _ reduces_rows]

/-- The row-wise log-softmax at `(P, q)`: the log-softmax of row `P` at column `q`. -/
theorem logSoftmaxRows_apply (z : FVec Ideal Cert.ReferenceIdeal.S50000x64 .f32) (P : Fin 50000) (q : Fin 64) :
    Cert.Stages.logSoftmaxRows (F := Ideal) z (ix2 P q) = rowLS (fun k => z (ix2 P k)) q := by
  unfold Cert.Stages.logSoftmaxRows Cert.Stages.logSumExp
  rw [subf_apply, bcastKeep_apply, hostLog_apply, bcastCol_apply, rowSum_host _ _ reduces_rows, shifted_apply]
  unfold rowLS
  refine congrArg (fun s => _ - Ideal.log s) (Finset.sum_congr rfl fun k _ => ?_)
  rw [hostExp_apply, shifted_apply]

/-- The reference's stage at `(P, q)`: the log-softmax of row `P` of the array plus the bias row, at column `q`. -/
theorem stages_apply (a : FVec Ideal Cert.ReferenceIdeal.S50000x64 .f32) (b : FVec Ideal Cert.ReferenceIdeal.S1x64 .f32)
    (P : Fin 50000) (q : Fin 64) :
    Cert.Stages.biasLogSoftmax (F := Ideal) a b (ix2 P q) = rowLS (fun k => a (ix2 P k) + b (ix2 (0 : Fin 1) k)) q := by
  unfold Cert.Stages.biasLogSoftmax
  rw [logSoftmaxRows_apply]
  refine congrArg (fun f => rowLS f q) (funext fun k => ?_)
  rw [addf_apply, bcastRow_apply]

/-! ## From the blocks to the array -/

theorem zeros2 : (![0, 0] : Fin 2 → Nat) = fun _ => 0 := funext fun a => by fin_cases a <;> rfl

/-- The printed index maps over the grid: the input block and the output block are the point's block of 5000 rows, the
    bias row is staged whole. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The grid has ten points. -/
theorem point_lt (t : Fin cfg3.N) : t.val < 10 := lt_of_lt_of_eq t.isLt N_3

/-- Row `p` of the input block at point `t` is row `5000 t + p` of the array. -/
theorem emb_in (t : Fin cfg3.N) (p : Fin 5000) (k : Fin 64) (hP : t.val * 5000 + p.val < 50000) :
    ((cfg3.win 0).blk t).view.emb (ix2 p k) = ix2 (⟨t.val * 5000 + p.val, hP⟩ : Fin 50000) k := by
  obtain ⟨e0, e1, -, -, -, -⟩ := index_facts t
  funext a; apply Fin.ext
  match a with
  | ⟨0, _⟩ => show win3_0.index t (0 : Fin 2) * 5000 + 1 * p.val = t.val * 5000 + p.val; omega
  | ⟨1, _⟩ => show win3_0.index t (1 : Fin 2) * 64 + 1 * k.val = k.val; omega

/-- The bias row's block is the bias row. -/
theorem emb_bias (t : Fin cfg3.N) (k : Fin 64) :
    ((cfg3.win 1).blk t).view.emb (ix2 (0 : Fin 1) k) = ix2 (0 : Fin 1) k := by
  obtain ⟨-, -, e2, e3, -, -⟩ := index_facts t
  funext a; apply Fin.ext
  match a with
  | ⟨0, _⟩ => show win3_1.index t (0 : Fin 2) * 1 + 1 * 0 = 0; omega
  | ⟨1, _⟩ => show win3_1.index t (1 : Fin 2) * 64 + 1 * k.val = k.val; omega

/-- Row `p` of the output block at point `t` is row `5000 t + p` of the array. -/
theorem emb_out (t : Fin cfg3.N) (p : Fin 5000) (q : Fin 64) (hP : t.val * 5000 + p.val < 50000) :
    ((cfg3.win 2).blk t).view.emb (ix2 p q) = ix2 (⟨t.val * 5000 + p.val, hP⟩ : Fin 50000) q := by
  obtain ⟨-, -, -, -, e4, e5⟩ := index_facts t
  funext a; apply Fin.ext
  match a with
  | ⟨0, _⟩ => show win3_2.index t (0 : Fin 2) * 5000 + 1 * p.val = t.val * 5000 + p.val; omega
  | ⟨1, _⟩ => show win3_2.index t (1 : Fin 2) * 64 + 1 * q.val = q.val; omega

variable (V : (c : Dev nD) → (b : Ref sig .tc) → Buf (Elt Ideal) ((c : Thread nD τ).loc b))

/-- What point `t` writes back is block `t` of the reference's stage of the two arrays as the region finds them. -/
theorem flushed_eq (c : Dev nD) (t : Fin cfg3.N) :
    (dat3 (F := Ideal) V c).flushed 2 t
      = ((cfg3.win 2).blk t).view.read (Elt Ideal) (Cert.Stages.biasLogSoftmax (F := Ideal) (V c main_v59) (V c main_v60)) := by
  show (cfg3.win 2).cut (grid3.coords t) ((dat3 V c).after 2 t) = _
  rw [after3_2]
  unfold out3_2
  rw [View.canon_unit_zero zeros2]
  simp only [View.ld_unit_zero (S := S5000x64) zeros2, View.ld_unit_zero (S := S1x64) zeros2]
  funext j
  obtain ⟨p, q, rfl⟩ : ∃ (p : Fin 5000) (q : Fin 64), j = ix2 p q := ⟨j 0, j 1, eq_ix2 j⟩
  have ht := point_lt t
  have hP : t.val * 5000 + p.val < 50000 := by have := p.isLt; omega
  show k3_pay1 (F := Ideal) (iblk3 V c 0 t) (iblk3 V c 1 t) (ix2 p q)
    = Cert.Stages.biasLogSoftmax (F := Ideal) (V c main_v59) (V c main_v60) (((cfg3.win 2).blk t).view.emb (ix2 p q))
  rw [pay_apply, emb_out t p q hP, stages_apply]
  refine congrArg (fun f => rowLS f q) (funext fun k => ?_)
  have h0 : @Eq EReal (iblk3 V c 0 t (ix2 p k)) (V c main_v59 (ix2 (⟨t.val * 5000 + p.val, hP⟩ : Fin 50000) k)) :=
    congrArg (V c main_v59) (emb_in t p k hP)
  have h1 : @Eq EReal (iblk3 V c 1 t (ix2 (0 : Fin 1) k)) (V c main_v60 (ix2 (0 : Fin 1) k)) :=
    congrArg (V c main_v60) (emb_bias t k)
  exact congrArg₂ (fun x y : EReal => x + y) h0 h1

/-- An index of the array is in point `t`'s output block iff each coordinate is in the block's range on its axis. -/
theorem mem_blk (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v61).slice (win3_2.rect t)).set ↔ _
  rw [View.set_slice_whole, Rect.mem_set_unit]
  exact Iff.rfl

/-- Every index of the array is in the output block of the point that holds its row: row `r` is in block `r / 5000`. -/
theorem cover (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  have hN : (i 0).val / 5000 < cfg3.N := by rw [show cfg3.N = 10 from N_3]; omega
  obtain ⟨-, -, -, -, e4, e5⟩ := index_facts ⟨(i 0).val / 5000, hN⟩
  refine ⟨⟨(i 0).val / 5000, hN⟩, flush3_2 _, ?_⟩
  rw [mem_blk]
  intro a
  match a with
  | ⟨0, _⟩ =>
    show win3_2.index ⟨(i 0).val / 5000, hN⟩ (0 : Fin 2) * 5000 ≤ (i 0).val ∧ (i 0).val < win3_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, hN⟩ (1 : Fin 2) * 64 ≤ (i 1).val ∧ (i 1).val < win3_2.index ⟨(i 0).val / 5000, hN⟩ (1 : Fin 2) * 64 + 64
    omega

theorem array_eq (c : Dev nD) :
    (dat3 (F := Ideal) V c).arrAt 2 cfg3.N = Cert.Stages.biasLogSoftmax (F := Ideal) (V c main_v59) (V c main_v60) :=
  (dat3 V c).arrAt_eq_of_cover 2 _ (fun t _ => flushed_eq V c t) cover

end Cert.KernelIdeal.BiasLogSoftmax

end
-- ==== Proof.StretchA.lean ====
/-
  The kernel program's host operations before its first dense region, read as the reference's stages.

  From any buffer contents `Wv`: the first stretch builds, from the edge list, the source and target index
  arrays with the self loops appended, the degree's comparison with zero and its inverse square root; the
  second stretch selects the inverse square root where the degree is positive and zero elsewhere; the third
  gathers that at both ends of every edge and multiplies: the symmetric normalisation. Each result is the
  reference's stage of the same name of the edge list; buffers a stretch does not write keep their contents.
-/
import proofs.«126051_j44968307589409_1_alg».proof.Proof.Gen.KernelIdeal.Launch
import proofs.«126051_j44968307589409_1_alg».proof.Proof.RefRead
import Idealize.ShloMosaic.PureOps.Ideal.Laws
import Idealize.ShloMosaic.Lib.StableHlo.Run
import Idealize.ShloMosaic.Lib.Pipeline.Value

noncomputable section

namespace Cert.KernelIdeal.StretchA

open Idealize.ShloMosaic Idealize.ShloMosaic.TcCoe Idealize.SL.Sem Idealize.ShloMosaic.StableHlo Cert.KernelIdeal Cert.KernelIdeal.Gen
open Cert.ReferenceIdeal.ReadP

variable (Wv : Valuation τ sig (Elt Ideal))

/-! ## The first stretch -/

theorem k0_v3 : StableHlo.after hostOps0 Wv (Proc.devRef .tc main_v3) = val_main_v3 (F := Ideal) (Wv (Proc.devRef .tc main_arg1)) := by
  after_results
  rfl
theorem k0_v6 : StableHlo.after hostOps0 Wv (Proc.devRef .tc main_v6) = val_main_v6 (F := Ideal) (Wv (Proc.devRef .tc main_arg1)) := by
  after_results
  rfl
theorem k0_v12 : StableHlo.after hostOps0 Wv (Proc.devRef .tc main_v12) = val_main_v12 (F := Ideal) (Wv (Proc.devRef .tc main_arg1)) := by
  after_results
  rfl
theorem k0_v13 : StableHlo.after hostOps0 Wv (Proc.devRef .tc main_v13) = val_main_v13 (F := Ideal) (Wv (Proc.devRef .tc main_arg1)) := by
  after_results
  rfl
theorem k0_cst2 : StableHlo.after hostOps0 Wv (Proc.devRef .tc main_cst_2) = val_main_cst_2 (F := Ideal) := by
  after_results
  rfl

/-! ## The second stretch: the selection -/

theorem k1_v14 (e : (⟨Cert.ReferenceIdeal.S2x1600000, .i32⟩ : BufTy).Contents (Elt Ideal)) (h12 : Wv (Proc.devRef .tc main_v12) = val_main_v12 (F := Ideal) e)
    (h13 : Wv (Proc.devRef .tc main_v13) = val_main_v13 (F := Ideal) e) (hc : Wv (Proc.devRef .tc main_cst_2) = val_main_cst_2 (F := Ideal)) :
    StableHlo.after hostOps0_1 Wv (Proc.devRef .tc main_v14) = val_main_v14 (F := Ideal) e := by
  after_results
  simp only [TRef.ofBuf, TRef.toBuf, cast_eq]
  rw [h12, h13, hc]
  rfl
theorem k1_keep_v3 : StableHlo.after hostOps0_1 Wv (Proc.devRef .tc main_v3) = Wv (Proc.devRef .tc main_v3) := by
  after_results
theorem k1_keep_v6 : StableHlo.after hostOps0_1 Wv (Proc.devRef .tc main_v6) = Wv (Proc.devRef .tc main_v6) := by
  after_results

/-! ## The third stretch: the normalisation -/

theorem k2_v29 (e : (⟨Cert.ReferenceIdeal.S2x1600000, .i32⟩ : BufTy).Contents (Elt Ideal)) (h14 : Wv (Proc.devRef .tc main_v14) = val_main_v14 (F := Ideal) e)
    (h3 : Wv (Proc.devRef .tc main_v3) = val_main_v3 (F := Ideal) e) (h6 : Wv (Proc.devRef .tc main_v6) = val_main_v6 (F := Ideal) e) :
    StableHlo.after hostOps0_2 Wv (Proc.devRef .tc main_v29) = val_main_v29 (F := Ideal) e := by
  after_results_simp
  rw [h14, h3, h6]
  rfl
theorem k2_keep_v3 : StableHlo.after hostOps0_2 Wv (Proc.devRef .tc main_v3) = Wv (Proc.devRef .tc main_v3) := by
  after_results
theorem k2_keep_v6 : StableHlo.after hostOps0_2 Wv (Proc.devRef .tc main_v6) = Wv (Proc.devRef .tc main_v6) := by
  after_results

/-! ## The argument arrays through the three stretches -/

theorem k012_keep_arg0 :
    StableHlo.after hostOps0_2 (StableHlo.after hostOps0_1 (StableHlo.after hostOps0 Wv)) (Proc.devRef .tc main_arg0) = Wv (Proc.devRef .tc main_arg0) := by
  after_results
theorem k012_keep_arg2 :
    StableHlo.after hostOps0_2 (StableHlo.after hostOps0_1 (StableHlo.after hostOps0 Wv)) (Proc.devRef .tc main_arg2) = Wv (Proc.devRef .tc main_arg2) := by
  after_results
theorem k012_keep_arg3 :
    StableHlo.after hostOps0_2 (StableHlo.after hostOps0_1 (StableHlo.after hostOps0 Wv)) (Proc.devRef .tc main_arg3) = Wv (Proc.devRef .tc main_arg3) := by
  after_results
theorem k012_keep_arg4 :
    StableHlo.after hostOps0_2 (StableHlo.after hostOps0_1 (StableHlo.after hostOps0 Wv)) (Proc.devRef .tc main_arg4) = Wv (Proc.devRef .tc main_arg4) := by
  after_results
theorem k012_keep_arg5 :
    StableHlo.after hostOps0_2 (StableHlo.after hostOps0_1 (StableHlo.after hostOps0 Wv)) (Proc.devRef .tc main_arg5) = Wv (Proc.devRef .tc main_arg5) := by
  after_results

end Cert.KernelIdeal.StretchA

end
-- ==== Proof.StretchB.lean ====
/-
  The kernel program's two aggregation stretches, read as the reference's stages.

  From any buffer contents `Wv` whose dense-transform buffer, index arrays and normalisation hold the
  reference's stages, the stretch after the first dense region leaves the reference's first aggregation
  `agg i = ∑ over edges e with dst e = i of norm e · h (src e)` (gather, scale, scatter-add) and the first bias as
  a one-row matrix; the stretch after the second dense region leaves the second aggregation and the second bias
  row. The kernel program reshapes a bias vector to one row where the reference broadcasts it: the same row.
  Buffers a stretch does not write keep their contents.
-/
import proofs.«126051_j44968307589409_1_alg».proof.Proof.Gen.KernelIdeal.Launch
import proofs.«126051_j44968307589409_1_alg».proof.Proof.RefRead
import Idealize.ShloMosaic.PureOps.Ideal.Laws
import Idealize.ShloMosaic.Lib.StableHlo.Run
import Idealize.ShloMosaic.Lib.Pipeline.Value

noncomputable section

namespace Cert.KernelIdeal.StretchB

open Idealize.ShloMosaic Idealize.ShloMosaic.TcCoe Idealize.SL.Sem Idealize.ShloMosaic.StableHlo Cert.KernelIdeal Cert.KernelIdeal.Gen
open Cert.ReferenceIdeal.ReadP

variable (Wv : Valuation τ sig (Elt Ideal))

/-! ## A bias vector as a one-row matrix: reshaped or broadcast, the same row -/

theorem row128 (b : FVec Ideal S128 .f32) :
    shapeCast S1x128 b shapeCasts_S128_S1x128 = val_main_v44 (F := Ideal) b := by
  funext i
  rw [val_main_v44_apply]
  exact shapeCast_apply b shapeCasts_S128_S1x128 i (idx_main_v44 i)
    (by rewrite [Shape.rowMajor_val_two, Shape.rowMajor_val_one]; have h0 : (i 0).val < 1 := (i 0).isLt
        show (i 1).val = (i 0).val * 128 + (i 1).val; omega)

theorem row64 (b : FVec Ideal S64 .f32) :
    shapeCast S1x64 b shapeCasts_S64_S1x64 = val_main_v62 (F := Ideal) b := by
  funext i
  rw [val_main_v62_apply]
  exact shapeCast_apply b shapeCasts_S64_S1x64 i (idx_main_v62 i)
    (by rewrite [Shape.rowMajor_val_two, Shape.rowMajor_val_one]; have h0 : (i 0).val < 1 := (i 0).isLt
        show (i 1).val = (i 0).val * 64 + (i 1).val; omega)

/-! ## The stretch after the first dense region -/

set_option maxHeartbeats 2000000 in
theorem k3_v43 (x : (⟨Cert.ReferenceIdeal.S50000x128, .f32⟩ : BufTy).Contents (Elt Ideal)) (e : (⟨Cert.ReferenceIdeal.S2x1600000, .i32⟩ : BufTy).Contents (Elt Ideal)) (w1 : (⟨Cert.ReferenceIdeal.S128x128, .f32⟩ : BufTy).Contents (Elt Ideal))
    (h30 : Wv (Proc.devRef .tc main_v30) = val_main_v30 (F := Ideal) x w1) (h3 : Wv (Proc.devRef .tc main_v3) = val_main_v3 (F := Ideal) e)
    (h6 : Wv (Proc.devRef .tc main_v6) = val_main_v6 (F := Ideal) e) (h29 : Wv (Proc.devRef .tc main_v29) = val_main_v29 (F := Ideal) e) :
    StableHlo.after hostOps1 Wv (Proc.devRef .tc main_v43) = val_main_v43 (F := Ideal) x e w1 := by
  after_results
  rw [h30, h3, h6, h29]
  rfl
theorem k3_v44 (b1 : (⟨Cert.ReferenceIdeal.S128, .f32⟩ : BufTy).Contents (Elt Ideal)) (h : Wv (Proc.devRef .tc main_arg3) = b1) :
    StableHlo.after hostOps1 Wv (Proc.devRef .tc main_v44) = val_main_v44 (F := Ideal) b1 := by
  after_results
  rw [h]
  exact row128 b1
theorem k3_keep_v3 : StableHlo.after hostOps1 Wv (Proc.devRef .tc main_v3) = Wv (Proc.devRef .tc main_v3) := by
  after_results
theorem k3_keep_v6 : StableHlo.after hostOps1 Wv (Proc.devRef .tc main_v6) = Wv (Proc.devRef .tc main_v6) := by
  after_results
theorem k3_keep_v29 : StableHlo.after hostOps1 Wv (Proc.devRef .tc main_v29) = Wv (Proc.devRef .tc main_v29) := by
  after_results
theorem k3_keep_arg4 : StableHlo.after hostOps1 Wv (Proc.devRef .tc main_arg4) = Wv (Proc.devRef .tc main_arg4) := by
  after_results
theorem k3_keep_arg5 : StableHlo.after hostOps1 Wv (Proc.devRef .tc main_arg5) = Wv (Proc.devRef .tc main_arg5) := by
  after_results

/-! ## The stretch after the second dense region -/

set_option maxHeartbeats 2000000 in
theorem k4_v59 (x : (⟨Cert.ReferenceIdeal.S50000x128, .f32⟩ : BufTy).Contents (Elt Ideal)) (e : (⟨Cert.ReferenceIdeal.S2x1600000, .i32⟩ : BufTy).Contents (Elt Ideal)) (w1 : (⟨Cert.ReferenceIdeal.S128x128, .f32⟩ : BufTy).Contents (Elt Ideal)) (b1 : (⟨Cert.ReferenceIdeal.S128, .f32⟩ : BufTy).Contents (Elt Ideal)) (w2 : (⟨Cert.ReferenceIdeal.S128x64, .f32⟩ : BufTy).Contents (Elt Ideal))
    (h46 : Wv (Proc.devRef .tc main_v46) = val_main_v48 (F := Ideal) x e w1 b1 w2) (h3 : Wv (Proc.devRef .tc main_v3) = val_main_v3 (F := Ideal) e)
    (h6 : Wv (Proc.devRef .tc main_v6) = val_main_v6 (F := Ideal) e) (h29 : Wv (Proc.devRef .tc main_v29) = val_main_v29 (F := Ideal) e) :
    StableHlo.after hostOps3 Wv (Proc.devRef .tc main_v59) = val_main_v61 (F := Ideal) x e w1 b1 w2 := by
  after_results
  rw [h46, h3, h6, h29]
  rfl
theorem k4_v60 (b2 : (⟨Cert.ReferenceIdeal.S64, .f32⟩ : BufTy).Contents (Elt Ideal)) (h : Wv (Proc.devRef .tc main_arg5) = b2) :
    StableHlo.after hostOps3 Wv (Proc.devRef .tc main_v60) = val_main_v62 (F := Ideal) b2 := by
  after_results
  rw [h]
  exact row64 b2

end Cert.KernelIdeal.StretchB

end
-- ==== Proof.Glue.lean ====
/-
  The kernel program's buffers, boundary by boundary, read as the stages of the reference.

  Between its four dense regions the kernel program runs the same host operations as the reference: the edge
  list with self loops (source and target indices), the symmetric normalisation
  `norm e = deg^(-1/2) (src e) · deg^(-1/2) (dst e)`, and per layer the aggregation
  `agg i = ∑ over edges e with dst e = i of norm e · h (src e)` (a gather, a scaling and a scatter-add).
  Each buffer a later item reads is followed from the launch memory through the boundaries of @main:
  the index and normalisation arrays are the reference's stages of the edge list; each dense region leaves the
  corresponding dense stage of its input arrays; each aggregation is the reference's aggregation of equal
  operands; a buffer no item in between writes keeps its contents. At the end the result buffer holds the
  reference's last stage of the six argument arrays.
-/
import proofs.«126051_j44968307589409_1_alg».proof.Proof.Gen.KernelIdeal.Frame
import proofs.«126051_j44968307589409_1_alg».proof.Proof.RefRead
import proofs.«126051_j44968307589409_1_alg».proof.Proof.Stages
import proofs.«126051_j44968307589409_1_alg».proof.Proof.Dense1
import proofs.«126051_j44968307589409_1_alg».proof.Proof.BiasRelu
import proofs.«126051_j44968307589409_1_alg».proof.Proof.Dense2
import proofs.«126051_j44968307589409_1_alg».proof.Proof.BiasLogSoftmax
import proofs.«126051_j44968307589409_1_alg».proof.Proof.StretchA
import proofs.«126051_j44968307589409_1_alg».proof.Proof.StretchB

noncomputable section

namespace Cert.KernelIdeal.Glue

open Idealize.ShloMosaic Idealize.ShloMosaic.TcCoe Idealize.SL.Sem Idealize.ShloMosaic.StableHlo Cert.KernelIdeal Cert.KernelIdeal.Gen
open Cert.ReferenceIdeal.ReadP (val_main_v3 val_main_v6 val_main_v12 val_main_v13 val_main_cst_2 val_main_v14 val_main_v29 val_main_v30
  val_main_v43 val_main_v44 val_main_v47 val_main_v48 val_main_v61 val_main_v62 val_main_v65)

variable (m : (ℓ : Loc nD τ sig) → Buf (Elt Ideal) ℓ) (ρ : Dev nD → PrngReg) (c : Dev nD)

/-! ## Before the first dense region: the index arrays and the normalisation -/

theorem W1_v3 : W1 m ρ c (Proc.devRef .tc main_v3) = val_main_v3 (F := Ideal) (m ((c.tc : Thread nD τ).loc main_arg1)) := StretchA.k0_v3 (W0 m ρ c)
theorem W1_v6 : W1 m ρ c (Proc.devRef .tc main_v6) = val_main_v6 (F := Ideal) (m ((c.tc : Thread nD τ).loc main_arg1)) := StretchA.k0_v6 (W0 m ρ c)
theorem W1_v12 : W1 m ρ c (Proc.devRef .tc main_v12) = val_main_v12 (F := Ideal) (m ((c.tc : Thread nD τ).loc main_arg1)) := StretchA.k0_v12 (W0 m ρ c)
theorem W1_v13 : W1 m ρ c (Proc.devRef .tc main_v13) = val_main_v13 (F := Ideal) (m ((c.tc : Thread nD τ).loc main_arg1)) := StretchA.k0_v13 (W0 m ρ c)
theorem W1_cst2 : W1 m ρ c (Proc.devRef .tc main_cst_2) = val_main_cst_2 (F := Ideal) := StretchA.k0_cst2 (W0 m ρ c)

theorem W2_v3 : W2 m ρ c (Proc.devRef .tc main_v3) = val_main_v3 (F := Ideal) (m ((c.tc : Thread nD τ).loc main_arg1)) :=
  (StretchA.k1_keep_v3 (W1 m ρ c)).trans (W1_v3 m ρ c)
theorem W2_v6 : W2 m ρ c (Proc.devRef .tc main_v6) = val_main_v6 (F := Ideal) (m ((c.tc : Thread nD τ).loc main_arg1)) :=
  (StretchA.k1_keep_v6 (W1 m ρ c)).trans (W1_v6 m ρ c)
theorem W2_v14 : W2 m ρ c (Proc.devRef .tc main_v14) = val_main_v14 (F := Ideal) (m ((c.tc : Thread nD τ).loc main_arg1)) :=
  StretchA.k1_v14 (W1 m ρ c) _ (W1_v12 m ρ c) (W1_v13 m ρ c) (W1_cst2 m ρ c)

theorem W3_v3 : W3 m ρ c (Proc.devRef .tc main_v3) = val_main_v3 (F := Ideal) (m ((c.tc : Thread nD τ).loc main_arg1)) :=
  (StretchA.k2_keep_v3 (W2 m ρ c)).trans (W2_v3 m ρ c)
theorem W3_v6 : W3 m ρ c (Proc.devRef .tc main_v6) = val_main_v6 (F := Ideal) (m ((c.tc : Thread nD τ).loc main_arg1)) :=
  (StretchA.k2_keep_v6 (W2 m ρ c)).trans (W2_v6 m ρ c)
theorem W3_v29 : W3 m ρ c (Proc.devRef .tc main_v29) = val_main_v29 (F := Ideal) (m ((c.tc : Thread nD τ).loc main_arg1)) :=
  StretchA.k2_v29 (W2 m ρ c) _ (W2_v14 m ρ c) (W2_v3 m ρ c) (W2_v6 m ρ c)
theorem W3_arg0 : W3 m ρ c (Proc.devRef .tc main_arg0) = (m ((c.tc : Thread nD τ).loc main_arg0)) := StretchA.k012_keep_arg0 (W0 m ρ c)
theorem W3_arg2 : W3 m ρ c (Proc.devRef .tc main_arg2) = (m ((c.tc : Thread nD τ).loc main_arg2)) := StretchA.k012_keep_arg2 (W0 m ρ c)
theorem W3_arg3 : W3 m ρ c (Proc.devRef .tc main_arg3) = (m ((c.tc : Thread nD τ).loc main_arg3)) := StretchA.k012_keep_arg3 (W0 m ρ c)
theorem W3_arg4 : W3 m ρ c (Proc.devRef .tc main_arg4) = (m ((c.tc : Thread nD τ).loc main_arg4)) := StretchA.k012_keep_arg4 (W0 m ρ c)
theorem W3_arg5 : W3 m ρ c (Proc.devRef .tc main_arg5) = (m ((c.tc : Thread nD τ).loc main_arg5)) := StretchA.k012_keep_arg5 (W0 m ρ c)

/-! ## The first dense region, and what it keeps -/

theorem W4_v30 : W4 m ρ c (Proc.devRef .tc main_v30) = val_main_v30 (F := Ideal) (m ((c.tc : Thread nD τ).loc main_arg0)) (m ((c.tc : Thread nD τ).loc main_arg2)) :=
  (W4_arr m ρ c 2).trans ((Dense1.array_eq (V3 m ρ) c).trans (by
    show Cert.Stages.dense1 (F := Ideal) (W3 m ρ c (Proc.devRef .tc main_arg0)) (W3 m ρ c (Proc.devRef .tc main_arg2)) = _
    rw [W3_arg0, W3_arg2]; rfl))
theorem W4_v3 : W4 m ρ c (Proc.devRef .tc main_v3) = val_main_v3 (F := Ideal) (m ((c.tc : Thread nD τ).loc main_arg1)) :=
  (W4_of_ne m ρ c main_v3 (by decide)).trans (W3_v3 m ρ c)
theorem W4_v6 : W4 m ρ c (Proc.devRef .tc main_v6) = val_main_v6 (F := Ideal) (m ((c.tc : Thread nD τ).loc main_arg1)) :=
  (W4_of_ne m ρ c main_v6 (by decide)).trans (W3_v6 m ρ c)
theorem W4_v29 : W4 m ρ c (Proc.devRef .tc main_v29) = val_main_v29 (F := Ideal) (m ((c.tc : Thread nD τ).loc main_arg1)) :=
  (W4_of_ne m ρ c main_v29 (by decide)).trans (W3_v29 m ρ c)
theorem W4_arg3 : W4 m ρ c (Proc.devRef .tc main_arg3) = (m ((c.tc : Thread nD τ).loc main_arg3)) :=
  (W4_of_ne m ρ c main_arg3 (by decide)).trans (W3_arg3 m ρ c)
theorem W4_arg4 : W4 m ρ c (Proc.devRef .tc main_arg4) = (m ((c.tc : Thread nD τ).loc main_arg4)) :=
  (W4_of_ne m ρ c main_arg4 (by decide)).trans (W3_arg4 m ρ c)
theorem W4_arg5 : W4 m ρ c (Proc.devRef .tc main_arg5) = (m ((c.tc : Thread nD τ).loc main_arg5)) :=
  (W4_of_ne m ρ c main_arg5 (by decide)).trans (W3_arg5 m ρ c)

/-! ## The first aggregation and bias row -/

theorem W5_v43 : W5 m ρ c (Proc.devRef .tc main_v43) = val_main_v43 (F := Ideal) (m ((c.tc : Thread nD τ).loc main_arg0)) (m ((c.tc : Thread nD τ).loc main_arg1)) (m ((c.tc : Thread nD τ).loc main_arg2)) :=
  StretchB.k3_v43 (W4 m ρ c) _ _ _ (W4_v30 m ρ c) (W4_v3 m ρ c) (W4_v6 m ρ c) (W4_v29 m ρ c)
theorem W5_v44 : W5 m ρ c (Proc.devRef .tc main_v44) = val_main_v44 (F := Ideal) (m ((c.tc : Thread nD τ).loc main_arg3)) :=
  StretchB.k3_v44 (W4 m ρ c) _ (W4_arg3 m ρ c)
theorem W5_v3 : W5 m ρ c (Proc.devRef .tc main_v3) = val_main_v3 (F := Ideal) (m ((c.tc : Thread nD τ).loc main_arg1)) :=
  (StretchB.k3_keep_v3 (W4 m ρ c)).trans (W4_v3 m ρ c)
theorem W5_v6 : W5 m ρ c (Proc.devRef .tc main_v6) = val_main_v6 (F := Ideal) (m ((c.tc : Thread nD τ).loc main_arg1)) :=
  (StretchB.k3_keep_v6 (W4 m ρ c)).trans (W4_v6 m ρ c)
theorem W5_v29 : W5 m ρ c (Proc.devRef .tc main_v29) = val_main_v29 (F := Ideal) (m ((c.tc : Thread nD τ).loc main_arg1)) :=
  (StretchB.k3_keep_v29 (W4 m ρ c)).trans (W4_v29 m ρ c)
theorem W5_arg4 : W5 m ρ c (Proc.devRef .tc main_arg4) = (m ((c.tc : Thread nD τ).loc main_arg4)) :=
  (StretchB.k3_keep_arg4 (W4 m ρ c)).trans (W4_arg4 m ρ c)
theorem W5_arg5 : W5 m ρ c (Proc.devRef .tc main_arg5) = (m ((c.tc : Thread nD τ).loc main_arg5)) :=
  (StretchB.k3_keep_arg5 (W4 m ρ c)).trans (W4_arg5 m ρ c)

/-! ## The bias and positive-part region, and what it keeps -/

theorem W6_v45 : W6 m ρ c (Proc.devRef .tc main_v45) = val_main_v47 (F := Ideal) (m ((c.tc : Thread nD τ).loc main_arg0)) (m ((c.tc : Thread nD τ).loc main_arg1)) (m ((c.tc : Thread nD τ).loc main_arg2)) (m ((c.tc : Thread nD τ).loc main_arg3)) :=
  (W6_arr m ρ c 2).trans ((BiasRelu.array_eq (V5 m ρ) c).trans (by
    show Cert.Stages.biasRelu (F := Ideal) (W5 m ρ c (Proc.devRef .tc main_v43)) (W5 m ρ c (Proc.devRef .tc main_v44)) = _
    rw [W5_v43, W5_v44]; rfl))
theorem W6_v3 : W6 m ρ c (Proc.devRef .tc main_v3) = val_main_v3 (F := Ideal) (m ((c.tc : Thread nD τ).loc main_arg1)) :=
  (W6_of_ne m ρ c main_v3 (by decide)).trans (W5_v3 m ρ c)
theorem W6_v6 : W6 m ρ c (Proc.devRef .tc main_v6) = val_main_v6 (F := Ideal) (m ((c.tc : Thread nD τ).loc main_arg1)) :=
  (W6_of_ne m ρ c main_v6 (by decide)).trans (W5_v6 m ρ c)
theorem W6_v29 : W6 m ρ c (Proc.devRef .tc main_v29) = val_main_v29 (F := Ideal) (m ((c.tc : Thread nD τ).loc main_arg1)) :=
  (W6_of_ne m ρ c main_v29 (by decide)).trans (W5_v29 m ρ c)
theorem W6_arg4 : W6 m ρ c (Proc.devRef .tc main_arg4) = (m ((c.tc : Thread nD τ).loc main_arg4)) :=
  (W6_of_ne m ρ c main_arg4 (by decide)).trans (W5_arg4 m ρ c)
theorem W6_arg5 : W6 m ρ c (Proc.devRef .tc main_arg5) = (m ((c.tc : Thread nD τ).loc main_arg5)) :=
  (W6_of_ne m ρ c main_arg5 (by decide)).trans (W5_arg5 m ρ c)

/-! ## The second dense region, and what it keeps -/

theorem W7_v46 : W7 m ρ c (Proc.devRef .tc main_v46) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W7_arr m ρ c 2).trans ((Dense2.array_eq (V6 m ρ) c).trans (by
    show Cert.Stages.dense2 (F := Ideal) (W6 m ρ c (Proc.devRef .tc main_v45)) (W6 m ρ c (Proc.devRef .tc main_arg4)) = _
    rw [W6_v45, W6_arg4]; rfl))
theorem W7_v3 : W7 m ρ c (Proc.devRef .tc main_v3) = val_main_v3 (F := Ideal) (m ((c.tc : Thread nD τ).loc main_arg1)) :=
  (W7_of_ne m ρ c main_v3 (by decide)).trans (W6_v3 m ρ c)
theorem W7_v6 : W7 m ρ c (Proc.devRef .tc main_v6) = val_main_v6 (F := Ideal) (m ((c.tc : Thread nD τ).loc main_arg1)) :=
  (W7_of_ne m ρ c main_v6 (by decide)).trans (W6_v6 m ρ c)
theorem W7_v29 : W7 m ρ c (Proc.devRef .tc main_v29) = val_main_v29 (F := Ideal) (m ((c.tc : Thread nD τ).loc main_arg1)) :=
  (W7_of_ne m ρ c main_v29 (by decide)).trans (W6_v29 m ρ c)
theorem W7_arg5 : W7 m ρ c (Proc.devRef .tc main_arg5) = (m ((c.tc : Thread nD τ).loc main_arg5)) :=
  (W7_of_ne m ρ c main_arg5 (by decide)).trans (W6_arg5 m ρ c)

/-! ## The second aggregation and bias row -/

theorem W8_v59 : W8 m ρ c (Proc.devRef .tc main_v59) = val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  StretchB.k4_v59 (W7 m ρ c) _ _ _ _ _ (W7_v46 m ρ c) (W7_v3 m ρ c) (W7_v6 m ρ c) (W7_v29 m ρ c)
theorem W8_v60 : W8 m ρ c (Proc.devRef .tc main_v60) = val_main_v62 (F := Ideal) (m ((c.tc : Thread nD τ).loc main_arg5)) :=
  StretchB.k4_v60 (W7 m ρ c) _ (W7_arg5 m ρ c)

/-! ## The bias and log-softmax region: the result -/

/-- The result buffer at the last boundary holds the reference's last stage of the six argument arrays. -/
theorem W9_v61 : W9 m ρ c (Proc.devRef .tc main_v61) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W9_arr m ρ c 2).trans ((BiasLogSoftmax.array_eq (V8 m ρ) c).trans (by
    show Cert.Stages.biasLogSoftmax (F := Ideal) (W8 m ρ c (Proc.devRef .tc main_v59)) (W8 m ρ c (Proc.devRef .tc main_v60)) = _
    rw [W8_v59, W8_v60]; rfl))

end Cert.KernelIdeal.Glue

end
-- ==== Proof.RefResult.lean ====
/-
  The reference program's run, stated over its stages.

  The reference's @main is a straight line of 98 host operations. Cut into consecutive stretches — the edge
  list's index arrays and the degree; the selection of the inverse square root; the normalisation; the first
  layer (dense transform, aggregation, bias); the positive part; the second layer; the row-wise log-softmax —
  each stretch, from contents in which the buffers it reads hold the stages before it, leaves the stages it
  computes, and keeps every buffer it does not write. Chained from the launch contents, the result buffer ends
  at the last stage of the six argument arrays.
-/
import proofs.«126051_j44968307589409_1_alg».proof.Proof.RefRead
import Idealize.ShloMosaic.Lib.StableHlo.Run
import Idealize.ShloMosaic.Lib.Pipeline.Frame

noncomputable section

namespace Cert.ReferenceIdeal.RefResult

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

/-! ## The straight line, cut into eleven stretches -/

section Stretches
variable {F : FTy → Type} [FloatOps F]

/-- The edge list's source and target index arrays with the self loops appended, the degree by a scatter-add of ones, its comparison with zero and its inverse square root. -/
abbrev indexOps : List (HloOp τ sig (Elt F)) :=
  [ nullary main_v0 (iotaInDim S50000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    nullary main_cst (constant S_ .f32 0x3F800000#32),
    unary main_cst main_v7 (broadcastInDim S1650000 ![] bcast_S_S1650000 : (⟨S_, .f32⟩ : BufTy).Contents (Elt F) → (⟨S1650000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S1650000x1 ![0] bcast_S1650000_S1650000x1_0 : (⟨S1650000, .i32⟩ : BufTy).Contents (Elt F) → (⟨S1650000x1, .i32⟩ : BufTy).Contents (Elt F)),
    ternary main_v8 main_v9 main_v7 main_v10 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf (F := F) .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32) ]

/-- The selection: the inverse square root where the degree is positive, zero elsewhere. -/
abbrev selectOps : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select ]

/-- The symmetric normalisation: the selected inverse square root gathered at both ends of every edge, multiplied. -/
abbrev normOps : List (HloOp τ sig (Elt F)) :=
  [ nullary main_c (constantI S_ 32 0#32),
    unary main_c main_v15 (broadcastInDim S1650000 ![] bcast_S_S1650000 : (⟨S_, .i32⟩ : BufTy).Contents (Elt F) → (⟨S1650000, .i32⟩ : BufTy).Contents (Elt F)),
    binary main_v3 main_v15 main_v16 (cmpi .slt : (⟨S1650000, .i32⟩ : BufTy).Contents (Elt F) → (⟨S1650000, .i32⟩ : BufTy).Contents (Elt F) → (⟨S1650000, .i1⟩ : BufTy).Contents (Elt F)),
    nullary main_c_3 (constantI S_ 32 50000#32),
    unary main_c_3 main_v17 (broadcastInDim S1650000 ![] bcast_S_S1650000 : (⟨S_, .i32⟩ : BufTy).Contents (Elt F) → (⟨S1650000, .i32⟩ : BufTy).Contents (Elt F)),
    binary main_v3 main_v17 main_v18 (addi : (⟨S1650000, .i32⟩ : BufTy).Contents (Elt F) → (⟨S1650000, .i32⟩ : BufTy).Contents (Elt F) → (⟨S1650000, .i32⟩ : BufTy).Contents (Elt F)),
    ternary main_v16 main_v18 main_v3 main_v19 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v19 main_v20 (broadcastInDim S1650000x1 ![0] bcast_S1650000_S1650000x1_0 : (⟨S1650000, .i32⟩ : BufTy).Contents (Elt F) → (⟨S1650000x1, .i32⟩ : BufTy).Contents (Elt F)),
    binary main_v14 main_v20 main_v21 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_4 (constantI S_ 32 0#32),
    unary main_c_4 main_v22 (broadcastInDim S1650000 ![] bcast_S_S1650000 : (⟨S_, .i32⟩ : BufTy).Contents (Elt F) → (⟨S1650000, .i32⟩ : BufTy).Contents (Elt F)),
    binary main_v6 main_v22 main_v23 (cmpi .slt : (⟨S1650000, .i32⟩ : BufTy).Contents (Elt F) → (⟨S1650000, .i32⟩ : BufTy).Contents (Elt F) → (⟨S1650000, .i1⟩ : BufTy).Contents (Elt F)),
    nullary main_c_5 (constantI S_ 32 50000#32),
    unary main_c_5 main_v24 (broadcastInDim S1650000 ![] bcast_S_S1650000 : (⟨S_, .i32⟩ : BufTy).Contents (Elt F) → (⟨S1650000, .i32⟩ : BufTy).Contents (Elt F)),
    binary main_v6 main_v24 main_v25 (addi : (⟨S1650000, .i32⟩ : BufTy).Contents (Elt F) → (⟨S1650000, .i32⟩ : BufTy).Contents (Elt F) → (⟨S1650000, .i32⟩ : BufTy).Contents (Elt F)),
    ternary main_v23 main_v25 main_v6 main_v26 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v26 main_v27 (broadcastInDim S1650000x1 ![0] bcast_S1650000_S1650000x1_0 : (⟨S1650000, .i32⟩ : BufTy).Contents (Elt F) → (⟨S1650000x1, .i32⟩ : BufTy).Contents (Elt F)),
    binary main_v14 main_v27 main_v28 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v21 main_v28 main_v29 (mulf : (⟨S1650000, .f32⟩ : BufTy).Contents (Elt F) → (⟨S1650000, .f32⟩ : BufTy).Contents (Elt F) → (⟨S1650000, .f32⟩ : BufTy).Contents (Elt F)) ]

/-- The first layer: the dense transform, the gather along the sources scaled by the normalisation, the scatter-add into the targets, the bias row added. -/
abbrev layer1Ops : List (HloOp τ sig (Elt F)) :=
  [ binary main_arg0 main_arg2 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_6 (constantI S_ 32 0#32),
    unary main_c_6 main_v31 (broadcastInDim S1650000 ![] bcast_S_S1650000 : (⟨S_, .i32⟩ : BufTy).Contents (Elt F) → (⟨S1650000, .i32⟩ : BufTy).Contents (Elt F)),
    binary main_v3 main_v31 main_v32 (cmpi .slt : (⟨S1650000, .i32⟩ : BufTy).Contents (Elt F) → (⟨S1650000, .i32⟩ : BufTy).Contents (Elt F) → (⟨S1650000, .i1⟩ : BufTy).Contents (Elt F)),
    nullary main_c_7 (constantI S_ 32 50000#32),
    unary main_c_7 main_v33 (broadcastInDim S1650000 ![] bcast_S_S1650000 : (⟨S_, .i32⟩ : BufTy).Contents (Elt F) → (⟨S1650000, .i32⟩ : BufTy).Contents (Elt F)),
    binary main_v3 main_v33 main_v34 (addi : (⟨S1650000, .i32⟩ : BufTy).Contents (Elt F) → (⟨S1650000, .i32⟩ : BufTy).Contents (Elt F) → (⟨S1650000, .i32⟩ : BufTy).Contents (Elt F)),
    ternary main_v32 main_v34 main_v3 main_v35 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v35 main_v36 (broadcastInDim S1650000x1 ![0] bcast_S1650000_S1650000x1_0 : (⟨S1650000, .i32⟩ : BufTy).Contents (Elt F) → (⟨S1650000x1, .i32⟩ : BufTy).Contents (Elt F)),
    binary main_v30 main_v36 main_v37 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v29 main_v38 (broadcastInDim S1650000x1 ![0] bcast_S1650000_S1650000x1_0 : (⟨S1650000, .f32⟩ : BufTy).Contents (Elt F) → (⟨S1650000x1, .f32⟩ : BufTy).Contents (Elt F)),
    unary main_v38 main_v39 (broadcastInDim S1650000x128 ![0, 1] bcast_S1650000x1_S1650000x128_0_1 : (⟨S1650000x1, .f32⟩ : BufTy).Contents (Elt F) → (⟨S1650000x128, .f32⟩ : BufTy).Contents (Elt F)),
    binary main_v37 main_v39 main_v40 (mulf : (⟨S1650000x128, .f32⟩ : BufTy).Contents (Elt F) → (⟨S1650000x128, .f32⟩ : BufTy).Contents (Elt F) → (⟨S1650000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S1650000x1 ![0] bcast_S1650000_S1650000x1_0 : (⟨S1650000, .i32⟩ : BufTy).Contents (Elt F) → (⟨S1650000x1, .i32⟩ : BufTy).Contents (Elt F)),
    ternary main_v41 main_v42 main_v40 main_v43 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)) ]

/-- The positive part. -/
abbrev reluOps : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf ]

/-- The second layer: the dense transform, the gather, the scaling, the scatter-add, the bias row added. -/
abbrev layer2Ops : List (HloOp τ sig (Elt F)) :=
  [ binary main_v47 main_arg4 main_v48 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_9 (constantI S_ 32 0#32),
    unary main_c_9 main_v49 (broadcastInDim S1650000 ![] bcast_S_S1650000 : (⟨S_, .i32⟩ : BufTy).Contents (Elt F) → (⟨S1650000, .i32⟩ : BufTy).Contents (Elt F)),
    binary main_v3 main_v49 main_v50 (cmpi .slt : (⟨S1650000, .i32⟩ : BufTy).Contents (Elt F) → (⟨S1650000, .i32⟩ : BufTy).Contents (Elt F) → (⟨S1650000, .i1⟩ : BufTy).Contents (Elt F)),
    nullary main_c_10 (constantI S_ 32 50000#32),
    unary main_c_10 main_v51 (broadcastInDim S1650000 ![] bcast_S_S1650000 : (⟨S_, .i32⟩ : BufTy).Contents (Elt F) → (⟨S1650000, .i32⟩ : BufTy).Contents (Elt F)),
    binary main_v3 main_v51 main_v52 (addi : (⟨S1650000, .i32⟩ : BufTy).Contents (Elt F) → (⟨S1650000, .i32⟩ : BufTy).Contents (Elt F) → (⟨S1650000, .i32⟩ : BufTy).Contents (Elt F)),
    ternary main_v50 main_v52 main_v3 main_v53 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v53 main_v54 (broadcastInDim S1650000x1 ![0] bcast_S1650000_S1650000x1_0 : (⟨S1650000, .i32⟩ : BufTy).Contents (Elt F) → (⟨S1650000x1, .i32⟩ : BufTy).Contents (Elt F)),
    binary main_v48 main_v54 main_v55 ((fun x i => Host.gather gather_S50000x64_S1650000x1_S1650000x64_1_0_n_n_0_1_164 x i) : (⟨S50000x64, .f32⟩ : BufTy).Contents (Elt F) → (⟨S1650000x1, .i32⟩ : BufTy).Contents (Elt F) → (⟨S1650000x64, .f32⟩ : BufTy).Contents (Elt F)),
    unary main_v29 main_v56 (broadcastInDim S1650000x1 ![0] bcast_S1650000_S1650000x1_0 : (⟨S1650000, .f32⟩ : BufTy).Contents (Elt F) → (⟨S1650000x1, .f32⟩ : BufTy).Contents (Elt F)),
    unary main_v56 main_v57 (broadcastInDim S1650000x64 ![0, 1] bcast_S1650000x1_S1650000x64_0_1 : (⟨S1650000x1, .f32⟩ : BufTy).Contents (Elt F) → (⟨S1650000x64, .f32⟩ : BufTy).Contents (Elt F)),
    binary main_v55 main_v57 main_v58 (mulf : (⟨S1650000x64, .f32⟩ : BufTy).Contents (Elt F) → (⟨S1650000x64, .f32⟩ : BufTy).Contents (Elt F) → (⟨S1650000x64, .f32⟩ : BufTy).Contents (Elt F)),
    nullary main_cst_11 (constant S_ .f32 0x00000000#32),
    unary main_cst_11 main_v59 (broadcastInDim S50000x64 ![] bcast_S_S50000x64 : (⟨S_, .f32⟩ : BufTy).Contents (Elt F) → (⟨S50000x64, .f32⟩ : BufTy).Contents (Elt F)),
    unary main_v6 main_v60 (broadcastInDim S1650000x1 ![0] bcast_S1650000_S1650000x1_0 : (⟨S1650000, .i32⟩ : BufTy).Contents (Elt F) → (⟨S1650000x1, .i32⟩ : BufTy).Contents (Elt F)),
    ternary main_v59 main_v60 main_v58 main_v61 ((fun x i u => Host.scatterAdd scatter_S50000x64_S1650000x1_S1650000x64_1_0_0_1 x i u) : (⟨S50000x64, .f32⟩ : BufTy).Contents (Elt F) → (⟨S1650000x1, .i32⟩ : BufTy).Contents (Elt F) → (⟨S1650000x64, .f32⟩ : BufTy).Contents (Elt F) → (⟨S50000x64, .f32⟩ : BufTy).Contents (Elt F)),
    unary main_arg5 main_v62 (broadcastInDim S1x64 ![1] bcast_S64_S1x64_1 : (⟨S64, .f32⟩ : BufTy).Contents (Elt F) → (⟨S1x64, .f32⟩ : BufTy).Contents (Elt F)),
    unary main_v62 main_v63 (broadcastInDim S50000x64 ![0, 1] bcast_S1x64_S50000x64_0_1 : (⟨S1x64, .f32⟩ : BufTy).Contents (Elt F) → (⟨S50000x64, .f32⟩ : BufTy).Contents (Elt F)),
    binary main_v61 main_v63 main_v64 (addf : (⟨S50000x64, .f32⟩ : BufTy).Contents (Elt F) → (⟨S50000x64, .f32⟩ : BufTy).Contents (Elt F) → (⟨S50000x64, .f32⟩ : BufTy).Contents (Elt F)) ]

/-- The log-softmax, first piece: each row's maximum, a fold from minus infinity. -/
abbrev rowMaxOps : List (HloOp τ sig (Elt F)) :=
  [ TRef.nullary (TRef.of (T := ⟨S_, .f32⟩) main_call2_cst) (constant S_ .f32 0xFF800000#32),
    TRef.binary (TRef.of (T := ⟨S50000x64, .f32⟩) main_v64) (TRef.of (T := ⟨S_, .f32⟩) main_call2_cst) (TRef.of (T := ⟨S50000, .f32⟩) main_call2_v0) (fun x v => Host.reduce FloatOps.maximumf x v reducesTo_S50000x64_S50000_d1 h_S_) ]

/-- Second piece: that maximum taken once more against minus infinity. -/
abbrev clampOps : List (HloOp τ sig (Elt F)) :=
  [ TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf ]

/-- Third piece: the maximum subtracted from every entry of its row. -/
abbrev shiftOps : List (HloOp τ sig (Elt F)) :=
  [ TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x64, .f32⟩) main_call2_v4) (broadcastInDim S50000x64 ![0, 1] bcast_S50000x1_S50000x64_0_1),
    TRef.binary (TRef.of (T := ⟨S50000x64, .f32⟩) main_v64) (TRef.of (T := ⟨S50000x64, .f32⟩) main_call2_v4) (TRef.of (T := ⟨S50000x64, .f32⟩) main_call2_v5) subf ]

/-- Fourth piece: the exponentials of the shifted rows, summed along each row. -/
abbrev sumExpOps : List (HloOp τ sig (Elt F)) :=
  [ TRef.unary (TRef.of (T := ⟨S50000x64, .f32⟩) main_call2_v5) (TRef.of (T := ⟨S50000x64, .f32⟩) main_call2_v6) Host.exp,
    TRef.nullary (TRef.of (T := ⟨S_, .f32⟩) main_call2_cst_1) (constant S_ .f32 0x00000000#32),
    TRef.binary (TRef.of (T := ⟨S50000x64, .f32⟩) main_call2_v6) (TRef.of (T := ⟨S_, .f32⟩) main_call2_cst_1) (TRef.of (T := ⟨S50000, .f32⟩) main_call2_v7) (fun x v => Host.reduceAdd x v reducesTo_S50000x64_S50000_d1 h_S_) ]

/-- Last piece: the logarithm of each row's sum, subtracted from the shifted row. -/
abbrev logOps : List (HloOp τ sig (Elt F)) :=
  [ TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x64, .f32⟩) main_call2_v10) (broadcastInDim S50000x64 ![0, 1] bcast_S50000x1_S50000x64_0_1),
    TRef.binary (TRef.of (T := ⟨S50000x64, .f32⟩) main_call2_v5) (TRef.of (T := ⟨S50000x64, .f32⟩) main_call2_v10) (TRef.of (T := ⟨S50000x64, .f32⟩) main_v65) subf ]

set_option maxRecDepth 8192 in
/-- The 98 operations are the eleven stretches in a row. -/
theorem ops_eq_stretches : (ops : List (HloOp τ sig (Elt F)))
    = indexOps ++ (selectOps ++ (normOps ++ (layer1Ops ++ (reluOps ++ (layer2Ops ++ (rowMaxOps ++ (clampOps ++ (shiftOps ++ (sumExpOps ++ (logOps)))))))))) := rfl

end Stretches

section Values

variable (Wv : Valuation τ sig (Elt Ideal))

/-! ## The index arrays and the degree

From any contents: the stages of the edge list the later stretches read. -/

theorem index_v3 : StableHlo.after (indexOps (F := Ideal)) Wv (Proc.devRef .tc main_v3) = val_main_v3 (F := Ideal) (Wv (Proc.devRef .tc main_arg1)) := by
  after_results
  rfl
theorem index_v6 : StableHlo.after (indexOps (F := Ideal)) Wv (Proc.devRef .tc main_v6) = val_main_v6 (F := Ideal) (Wv (Proc.devRef .tc main_arg1)) := by
  after_results
  rfl
theorem index_v12 : StableHlo.after (indexOps (F := Ideal)) Wv (Proc.devRef .tc main_v12) = val_main_v12 (F := Ideal) (Wv (Proc.devRef .tc main_arg1)) := by
  after_results
  rfl
theorem index_v13 : StableHlo.after (indexOps (F := Ideal)) Wv (Proc.devRef .tc main_v13) = val_main_v13 (F := Ideal) (Wv (Proc.devRef .tc main_arg1)) := by
  after_results
  rfl
theorem index_cst_2 : StableHlo.after (indexOps (F := Ideal)) Wv (Proc.devRef .tc main_cst_2) = val_main_cst_2 (F := Ideal) := by
  after_results
  rfl
theorem index_keep_arg0 : StableHlo.after (indexOps (F := Ideal)) Wv (Proc.devRef .tc main_arg0) = Wv (Proc.devRef .tc main_arg0) := by
  after_results
theorem index_keep_arg2 : StableHlo.after (indexOps (F := Ideal)) Wv (Proc.devRef .tc main_arg2) = Wv (Proc.devRef .tc main_arg2) := by
  after_results
theorem index_keep_arg3 : StableHlo.after (indexOps (F := Ideal)) Wv (Proc.devRef .tc main_arg3) = Wv (Proc.devRef .tc main_arg3) := by
  after_results
theorem index_keep_arg4 : StableHlo.after (indexOps (F := Ideal)) Wv (Proc.devRef .tc main_arg4) = Wv (Proc.devRef .tc main_arg4) := by
  after_results
theorem index_keep_arg5 : StableHlo.after (indexOps (F := Ideal)) Wv (Proc.devRef .tc main_arg5) = Wv (Proc.devRef .tc main_arg5) := by
  after_results

/-! ## The selection -/

theorem select_v14 (e : (⟨S2x1600000, .i32⟩ : BufTy).Contents (Elt Ideal))
    (h12 : Wv (Proc.devRef .tc main_v12) = val_main_v12 (F := Ideal) e)
    (h13 : Wv (Proc.devRef .tc main_v13) = val_main_v13 (F := Ideal) e)
    (hc : Wv (Proc.devRef .tc main_cst_2) = val_main_cst_2 (F := Ideal)) :
    StableHlo.after (selectOps (F := Ideal)) Wv (Proc.devRef .tc main_v14) = val_main_v14 (F := Ideal) e := by
  after_results
  simp only [TRef.ofBuf, TRef.toBuf, cast_eq]
  rw [h12, h13, hc]
  rfl
theorem select_keep_v3 : StableHlo.after (selectOps (F := Ideal)) Wv (Proc.devRef .tc main_v3) = Wv (Proc.devRef .tc main_v3) := by
  after_results
theorem select_keep_v6 : StableHlo.after (selectOps (F := Ideal)) Wv (Proc.devRef .tc main_v6) = Wv (Proc.devRef .tc main_v6) := by
  after_results
theorem select_keep_arg0 : StableHlo.after (selectOps (F := Ideal)) Wv (Proc.devRef .tc main_arg0) = Wv (Proc.devRef .tc main_arg0) := by
  after_results
theorem select_keep_arg2 : StableHlo.after (selectOps (F := Ideal)) Wv (Proc.devRef .tc main_arg2) = Wv (Proc.devRef .tc main_arg2) := by
  after_results
theorem select_keep_arg3 : StableHlo.after (selectOps (F := Ideal)) Wv (Proc.devRef .tc main_arg3) = Wv (Proc.devRef .tc main_arg3) := by
  after_results
theorem select_keep_arg4 : StableHlo.after (selectOps (F := Ideal)) Wv (Proc.devRef .tc main_arg4) = Wv (Proc.devRef .tc main_arg4) := by
  after_results
theorem select_keep_arg5 : StableHlo.after (selectOps (F := Ideal)) Wv (Proc.devRef .tc main_arg5) = Wv (Proc.devRef .tc main_arg5) := by
  after_results

/-! ## The normalisation -/

set_option maxHeartbeats 4000000 in
theorem norm_v29 (e : (⟨S2x1600000, .i32⟩ : BufTy).Contents (Elt Ideal))
    (h3 : Wv (Proc.devRef .tc main_v3) = val_main_v3 (F := Ideal) e)
    (h6 : Wv (Proc.devRef .tc main_v6) = val_main_v6 (F := Ideal) e)
    (h14 : Wv (Proc.devRef .tc main_v14) = val_main_v14 (F := Ideal) e) :
    StableHlo.after (normOps (F := Ideal)) Wv (Proc.devRef .tc main_v29) = val_main_v29 (F := Ideal) e := by
  after_results
  rw [h3, h6, h14]
  rfl
theorem norm_keep_v3 : StableHlo.after (normOps (F := Ideal)) Wv (Proc.devRef .tc main_v3) = Wv (Proc.devRef .tc main_v3) := by
  after_results
theorem norm_keep_v6 : StableHlo.after (normOps (F := Ideal)) Wv (Proc.devRef .tc main_v6) = Wv (Proc.devRef .tc main_v6) := by
  after_results
theorem norm_keep_arg0 : StableHlo.after (normOps (F := Ideal)) Wv (Proc.devRef .tc main_arg0) = Wv (Proc.devRef .tc main_arg0) := by
  after_results
theorem norm_keep_arg2 : StableHlo.after (normOps (F := Ideal)) Wv (Proc.devRef .tc main_arg2) = Wv (Proc.devRef .tc main_arg2) := by
  after_results
theorem norm_keep_arg3 : StableHlo.after (normOps (F := Ideal)) Wv (Proc.devRef .tc main_arg3) = Wv (Proc.devRef .tc main_arg3) := by
  after_results
theorem norm_keep_arg4 : StableHlo.after (normOps (F := Ideal)) Wv (Proc.devRef .tc main_arg4) = Wv (Proc.devRef .tc main_arg4) := by
  after_results
theorem norm_keep_arg5 : StableHlo.after (normOps (F := Ideal)) Wv (Proc.devRef .tc main_arg5) = Wv (Proc.devRef .tc main_arg5) := by
  after_results

/-! ## The first layer -/

set_option maxHeartbeats 4000000 in
theorem layer1_v46 (x : (⟨S50000x128, .f32⟩ : BufTy).Contents (Elt Ideal)) (e : (⟨S2x1600000, .i32⟩ : BufTy).Contents (Elt Ideal)) (w1 : (⟨S128x128, .f32⟩ : BufTy).Contents (Elt Ideal)) (b1 : (⟨S128, .f32⟩ : BufTy).Contents (Elt Ideal))
    (hx : Wv (Proc.devRef .tc main_arg0) = x) (hw : Wv (Proc.devRef .tc main_arg2) = w1) (hb : Wv (Proc.devRef .tc main_arg3) = b1)
    (h3 : Wv (Proc.devRef .tc main_v3) = val_main_v3 (F := Ideal) e)
    (h6 : Wv (Proc.devRef .tc main_v6) = val_main_v6 (F := Ideal) e)
    (h29 : Wv (Proc.devRef .tc main_v29) = val_main_v29 (F := Ideal) e) :
    StableHlo.after (layer1Ops (F := Ideal)) Wv (Proc.devRef .tc main_v46) = val_main_v46 (F := Ideal) x e w1 b1 := by
  after_results
  rw [hx, hw, hb, h3, h6, h29]
  rfl
theorem layer1_keep_v3 : StableHlo.after (layer1Ops (F := Ideal)) Wv (Proc.devRef .tc main_v3) = Wv (Proc.devRef .tc main_v3) := by
  after_results
theorem layer1_keep_v6 : StableHlo.after (layer1Ops (F := Ideal)) Wv (Proc.devRef .tc main_v6) = Wv (Proc.devRef .tc main_v6) := by
  after_results
theorem layer1_keep_v29 : StableHlo.after (layer1Ops (F := Ideal)) Wv (Proc.devRef .tc main_v29) = Wv (Proc.devRef .tc main_v29) := by
  after_results
theorem layer1_keep_arg4 : StableHlo.after (layer1Ops (F := Ideal)) Wv (Proc.devRef .tc main_arg4) = Wv (Proc.devRef .tc main_arg4) := by
  after_results
theorem layer1_keep_arg5 : StableHlo.after (layer1Ops (F := Ideal)) Wv (Proc.devRef .tc main_arg5) = Wv (Proc.devRef .tc main_arg5) := by
  after_results

/-! ## The positive part -/

theorem relu_v47 (x : (⟨S50000x128, .f32⟩ : BufTy).Contents (Elt Ideal)) (e : (⟨S2x1600000, .i32⟩ : BufTy).Contents (Elt Ideal)) (w1 : (⟨S128x128, .f32⟩ : BufTy).Contents (Elt Ideal)) (b1 : (⟨S128, .f32⟩ : BufTy).Contents (Elt Ideal))
    (h46 : Wv (Proc.devRef .tc main_v46) = val_main_v46 (F := Ideal) x e w1 b1) :
    StableHlo.after (reluOps (F := Ideal)) Wv (Proc.devRef .tc main_v47) = val_main_v47 (F := Ideal) x e w1 b1 := by
  after_results
  simp only [TRef.ofBuf, TRef.toBuf, cast_eq]
  rw [h46]
  rfl
theorem relu_keep_v3 : StableHlo.after (reluOps (F := Ideal)) Wv (Proc.devRef .tc main_v3) = Wv (Proc.devRef .tc main_v3) := by
  after_results
theorem relu_keep_v6 : StableHlo.after (reluOps (F := Ideal)) Wv (Proc.devRef .tc main_v6) = Wv (Proc.devRef .tc main_v6) := by
  after_results
theorem relu_keep_v29 : StableHlo.after (reluOps (F := Ideal)) Wv (Proc.devRef .tc main_v29) = Wv (Proc.devRef .tc main_v29) := by
  after_results
theorem relu_keep_arg4 : StableHlo.after (reluOps (F := Ideal)) Wv (Proc.devRef .tc main_arg4) = Wv (Proc.devRef .tc main_arg4) := by
  after_results
theorem relu_keep_arg5 : StableHlo.after (reluOps (F := Ideal)) Wv (Proc.devRef .tc main_arg5) = Wv (Proc.devRef .tc main_arg5) := by
  after_results

/-! ## The second layer -/

set_option maxHeartbeats 4000000 in
theorem layer2_v64 (x : (⟨S50000x128, .f32⟩ : BufTy).Contents (Elt Ideal)) (e : (⟨S2x1600000, .i32⟩ : BufTy).Contents (Elt Ideal)) (w1 : (⟨S128x128, .f32⟩ : BufTy).Contents (Elt Ideal)) (b1 : (⟨S128, .f32⟩ : BufTy).Contents (Elt Ideal)) (w2 : (⟨S128x64, .f32⟩ : BufTy).Contents (Elt Ideal)) (b2 : (⟨S64, .f32⟩ : BufTy).Contents (Elt Ideal))
    (h47 : Wv (Proc.devRef .tc main_v47) = val_main_v47 (F := Ideal) x e w1 b1) (hw : Wv (Proc.devRef .tc main_arg4) = w2) (hb : Wv (Proc.devRef .tc main_arg5) = b2)
    (h3 : Wv (Proc.devRef .tc main_v3) = val_main_v3 (F := Ideal) e)
    (h6 : Wv (Proc.devRef .tc main_v6) = val_main_v6 (F := Ideal) e)
    (h29 : Wv (Proc.devRef .tc main_v29) = val_main_v29 (F := Ideal) e) :
    StableHlo.after (layer2Ops (F := Ideal)) Wv (Proc.devRef .tc main_v64) = val_main_v64 (F := Ideal) x e w1 b1 w2 b2 := by
  after_results
  rw [h47, hw, hb, h3, h6, h29]
  rfl

/-! ## The row-wise log-softmax, piece by piece -/

theorem rowMax_v0 (x : (⟨S50000x128, .f32⟩ : BufTy).Contents (Elt Ideal)) (e : (⟨S2x1600000, .i32⟩ : BufTy).Contents (Elt Ideal)) (w1 : (⟨S128x128, .f32⟩ : BufTy).Contents (Elt Ideal)) (b1 : (⟨S128, .f32⟩ : BufTy).Contents (Elt Ideal)) (w2 : (⟨S128x64, .f32⟩ : BufTy).Contents (Elt Ideal)) (b2 : (⟨S64, .f32⟩ : BufTy).Contents (Elt Ideal))
    (h64 : Wv (Proc.devRef .tc main_v64) = val_main_v64 (F := Ideal) x e w1 b1 w2 b2) :
    StableHlo.after (rowMaxOps (F := Ideal)) Wv (Proc.devRef .tc main_call2_v0) = val_main_call2_v0 (F := Ideal) x e w1 b1 w2 b2 := by
  after_results
  simp only [TRef.ofBuf, TRef.toBuf, cast_eq]
  rw [h64]
  rfl
theorem rowMax_keep_v64 : StableHlo.after (rowMaxOps (F := Ideal)) Wv (Proc.devRef .tc main_v64) = Wv (Proc.devRef .tc main_v64) := by
  after_results

theorem clamp_v2 (x : (⟨S50000x128, .f32⟩ : BufTy).Contents (Elt Ideal)) (e : (⟨S2x1600000, .i32⟩ : BufTy).Contents (Elt Ideal)) (w1 : (⟨S128x128, .f32⟩ : BufTy).Contents (Elt Ideal)) (b1 : (⟨S128, .f32⟩ : BufTy).Contents (Elt Ideal)) (w2 : (⟨S128x64, .f32⟩ : BufTy).Contents (Elt Ideal)) (b2 : (⟨S64, .f32⟩ : BufTy).Contents (Elt Ideal))
    (h0 : Wv (Proc.devRef .tc main_call2_v0) = val_main_call2_v0 (F := Ideal) x e w1 b1 w2 b2) :
    StableHlo.after (clampOps (F := Ideal)) Wv (Proc.devRef .tc main_call2_v2) = val_main_call2_v2 (F := Ideal) x e w1 b1 w2 b2 := by
  after_results
  simp only [TRef.ofBuf, TRef.toBuf, cast_eq]
  rw [h0]
  rfl
theorem clamp_keep_v64 : StableHlo.after (clampOps (F := Ideal)) Wv (Proc.devRef .tc main_v64) = Wv (Proc.devRef .tc main_v64) := by
  after_results

theorem shift_v5 (x : (⟨S50000x128, .f32⟩ : BufTy).Contents (Elt Ideal)) (e : (⟨S2x1600000, .i32⟩ : BufTy).Contents (Elt Ideal)) (w1 : (⟨S128x128, .f32⟩ : BufTy).Contents (Elt Ideal)) (b1 : (⟨S128, .f32⟩ : BufTy).Contents (Elt Ideal)) (w2 : (⟨S128x64, .f32⟩ : BufTy).Contents (Elt Ideal)) (b2 : (⟨S64, .f32⟩ : BufTy).Contents (Elt Ideal))
    (h2 : Wv (Proc.devRef .tc main_call2_v2) = val_main_call2_v2 (F := Ideal) x e w1 b1 w2 b2)
    (h64 : Wv (Proc.devRef .tc main_v64) = val_main_v64 (F := Ideal) x e w1 b1 w2 b2) :
    StableHlo.after (shiftOps (F := Ideal)) Wv (Proc.devRef .tc main_call2_v5) = val_main_call2_v5 (F := Ideal) x e w1 b1 w2 b2 := by
  after_results
  simp only [TRef.ofBuf, TRef.toBuf, cast_eq]
  rw [h2, h64]
  rfl

theorem sumExp_v7 (x : (⟨S50000x128, .f32⟩ : BufTy).Contents (Elt Ideal)) (e : (⟨S2x1600000, .i32⟩ : BufTy).Contents (Elt Ideal)) (w1 : (⟨S128x128, .f32⟩ : BufTy).Contents (Elt Ideal)) (b1 : (⟨S128, .f32⟩ : BufTy).Contents (Elt Ideal)) (w2 : (⟨S128x64, .f32⟩ : BufTy).Contents (Elt Ideal)) (b2 : (⟨S64, .f32⟩ : BufTy).Contents (Elt Ideal))
    (h5 : Wv (Proc.devRef .tc main_call2_v5) = val_main_call2_v5 (F := Ideal) x e w1 b1 w2 b2) :
    StableHlo.after (sumExpOps (F := Ideal)) Wv (Proc.devRef .tc main_call2_v7) = val_main_call2_v7 (F := Ideal) x e w1 b1 w2 b2 := by
  after_results
  simp only [TRef.ofBuf, TRef.toBuf, cast_eq]
  rw [h5]
  rfl
theorem sumExp_keep_call2_v5 : StableHlo.after (sumExpOps (F := Ideal)) Wv (Proc.devRef .tc main_call2_v5) = Wv (Proc.devRef .tc main_call2_v5) := by
  after_results

theorem log_v65 (x : (⟨S50000x128, .f32⟩ : BufTy).Contents (Elt Ideal)) (e : (⟨S2x1600000, .i32⟩ : BufTy).Contents (Elt Ideal)) (w1 : (⟨S128x128, .f32⟩ : BufTy).Contents (Elt Ideal)) (b1 : (⟨S128, .f32⟩ : BufTy).Contents (Elt Ideal)) (w2 : (⟨S128x64, .f32⟩ : BufTy).Contents (Elt Ideal)) (b2 : (⟨S64, .f32⟩ : BufTy).Contents (Elt Ideal))
    (h7 : Wv (Proc.devRef .tc main_call2_v7) = val_main_call2_v7 (F := Ideal) x e w1 b1 w2 b2)
    (h5 : Wv (Proc.devRef .tc main_call2_v5) = val_main_call2_v5 (F := Ideal) x e w1 b1 w2 b2) :
    StableHlo.after (logOps (F := Ideal)) Wv (Proc.devRef .tc main_v65) = val_main_v65 (F := Ideal) x e w1 b1 w2 b2 := by
  after_results
  simp only [TRef.ofBuf, TRef.toBuf, cast_eq]
  rw [h7, h5]
  rfl

end Values

/-! ## The stretches in a row, from the launch contents -/

/-- The result buffer after all of @main's operations, from the launch contents: the last stage of the arguments. -/
theorem result (m : (ℓ : Loc nD τ sig) → Buf (Elt Ideal) ℓ) (c : Dev nD) :
    StableHlo.after (ops (F := Ideal)) (launchContents m c) (Proc.devRef .tc main_v65)
      = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [ops_eq_stretches]
  simp only [StableHlo.after_append]
  generalize hW : launchContents m c = W
  have hx : W (Proc.devRef .tc main_arg0) = (m ((c.tc : Thread nD τ).loc main_arg0)) := by rw [← hW]
  have he : W (Proc.devRef .tc main_arg1) = (m ((c.tc : Thread nD τ).loc main_arg1)) := by rw [← hW]
  have hw1 : W (Proc.devRef .tc main_arg2) = (m ((c.tc : Thread nD τ).loc main_arg2)) := by rw [← hW]
  have hb1 : W (Proc.devRef .tc main_arg3) = (m ((c.tc : Thread nD τ).loc main_arg3)) := by rw [← hW]
  have hw2 : W (Proc.devRef .tc main_arg4) = (m ((c.tc : Thread nD τ).loc main_arg4)) := by rw [← hW]
  have hb2 : W (Proc.devRef .tc main_arg5) = (m ((c.tc : Thread nD τ).loc main_arg5)) := by rw [← hW]
  generalize (m ((c.tc : Thread nD τ).loc main_arg0)) = x at hx ⊢
  generalize (m ((c.tc : Thread nD τ).loc main_arg1)) = e at he ⊢
  generalize (m ((c.tc : Thread nD τ).loc main_arg2)) = w1 at hw1 ⊢
  generalize (m ((c.tc : Thread nD τ).loc main_arg3)) = b1 at hb1 ⊢
  generalize (m ((c.tc : Thread nD τ).loc main_arg4)) = w2 at hw2 ⊢
  generalize (m ((c.tc : Thread nD τ).loc main_arg5)) = b2 at hb2 ⊢
  -- after the index arrays and the degree
  have h3 := index_v3 W
  have h6 := index_v6 W
  have h12 := index_v12 W
  have h13 := index_v13 W
  have hc := index_cst_2 W
  rw [he] at h3 h6 h12 h13
  have kx := (index_keep_arg0 W).trans hx
  have kw1 := (index_keep_arg2 W).trans hw1
  have kb1 := (index_keep_arg3 W).trans hb1
  have kw2 := (index_keep_arg4 W).trans hw2
  have kb2 := (index_keep_arg5 W).trans hb2
  generalize StableHlo.after (indexOps (F := Ideal)) W = W1 at h3 h6 h12 h13 hc kx kw1 kb1 kw2 kb2 ⊢
  -- after the selection
  have h14 := select_v14 W1 e h12 h13 hc
  replace h3 := (select_keep_v3 W1).trans h3
  replace h6 := (select_keep_v6 W1).trans h6
  replace kx := (select_keep_arg0 W1).trans kx
  replace kw1 := (select_keep_arg2 W1).trans kw1
  replace kb1 := (select_keep_arg3 W1).trans kb1
  replace kw2 := (select_keep_arg4 W1).trans kw2
  replace kb2 := (select_keep_arg5 W1).trans kb2
  clear h12 h13 hc
  generalize StableHlo.after (selectOps (F := Ideal)) W1 = W2 at h14 h3 h6 kx kw1 kb1 kw2 kb2 ⊢
  -- after the normalisation
  have h29 := norm_v29 W2 e h3 h6 h14
  replace h3 := (norm_keep_v3 W2).trans h3
  replace h6 := (norm_keep_v6 W2).trans h6
  replace kx := (norm_keep_arg0 W2).trans kx
  replace kw1 := (norm_keep_arg2 W2).trans kw1
  replace kb1 := (norm_keep_arg3 W2).trans kb1
  replace kw2 := (norm_keep_arg4 W2).trans kw2
  replace kb2 := (norm_keep_arg5 W2).trans kb2
  clear h14
  generalize StableHlo.after (normOps (F := Ideal)) W2 = W3 at h29 h3 h6 kx kw1 kb1 kw2 kb2 ⊢
  -- after the first layer
  have h46 := layer1_v46 W3 x e w1 b1 kx kw1 kb1 h3 h6 h29
  replace h3 := (layer1_keep_v3 W3).trans h3
  replace h6 := (layer1_keep_v6 W3).trans h6
  replace h29 := (layer1_keep_v29 W3).trans h29
  replace kw2 := (layer1_keep_arg4 W3).trans kw2
  replace kb2 := (layer1_keep_arg5 W3).trans kb2
  clear kx kw1 kb1
  generalize StableHlo.after (layer1Ops (F := Ideal)) W3 = W4 at h46 h3 h6 h29 kw2 kb2 ⊢
  -- after the positive part
  have h47 := relu_v47 W4 x e w1 b1 h46
  replace h3 := (relu_keep_v3 W4).trans h3
  replace h6 := (relu_keep_v6 W4).trans h6
  replace h29 := (relu_keep_v29 W4).trans h29
  replace kw2 := (relu_keep_arg4 W4).trans kw2
  replace kb2 := (relu_keep_arg5 W4).trans kb2
  clear h46
  generalize StableHlo.after (reluOps (F := Ideal)) W4 = W5 at h47 h3 h6 h29 kw2 kb2 ⊢
  -- after the second layer
  have h64 := layer2_v64 W5 x e w1 b1 w2 b2 h47 kw2 kb2 h3 h6 h29
  clear h47 h3 h6 h29 kw2 kb2
  generalize StableHlo.after (layer2Ops (F := Ideal)) W5 = W6 at h64 ⊢
  -- the log-softmax: the row maximum, clamped, subtracted; the exponentials summed; the logarithm subtracted
  have h0 := rowMax_v0 W6 x e w1 b1 w2 b2 h64
  replace h64 := (rowMax_keep_v64 W6).trans h64
  generalize StableHlo.after (rowMaxOps (F := Ideal)) W6 = W7 at h0 h64 ⊢
  have h2 := clamp_v2 W7 x e w1 b1 w2 b2 h0
  replace h64 := (clamp_keep_v64 W7).trans h64
  clear h0
  generalize StableHlo.after (clampOps (F := Ideal)) W7 = W8 at h2 h64 ⊢
  have h5 := shift_v5 W8 x e w1 b1 w2 b2 h2 h64
  clear h2 h64
  generalize StableHlo.after (shiftOps (F := Ideal)) W8 = W9 at h5 ⊢
  have h7 := sumExp_v7 W9 x e w1 b1 w2 b2 h5
  replace h5 := (sumExp_keep_call2_v5 W9).trans h5
  generalize StableHlo.after (sumExpOps (F := Ideal)) W9 = W10 at h7 h5 ⊢
  exact log_v65 W10 x e w1 b1 w2 b2 h7 h5

set_option maxRecDepth 8192 in
set_option maxHeartbeats 39200000 in
/-- On every device, from any memory with zero counters: every weakly fair execution of the reference's @main
    terminates with the result at the last stage of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v65).trans (result m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefResult

end
-- ==== Proof.lean ====
/-
  A two-layer graph convolution with a row-wise log-softmax, as four dense kernel regions among host operations,
  against the plain reference: both compute

    out = logsoftmax_rows (A · relu (A · (x · W1) + b1) · W2 + b2),

  where `A` is the normalised adjacency with self loops, applied as a gather of the source rows, a scaling by
  `norm e = deg^(-1/2) (src e) · deg^(-1/2) (dst e)` and a scatter-add onto the target rows. The kernel program
  computes the two dense products, the bias with the positive part and the bias with the log-softmax in regions of
  ten row blocks each, rounding the products' operands to a shorter float format first, which over the extended
  reals is the identity; the aggregation is the same host operations in both programs. So over the extended reals
  the two programs are the same function of the six argument arrays, stage by stage: a region's output array is
  the reference's stage of the region's input arrays (a matrix product entry is the same sum over the contracted
  axis whether taken block by block or at once; the bias broadcast, the positive part, the row maximum, the
  exponentials' row sum and its logarithm are row-local), and each host stretch maps equal operands to equal
  results. No finiteness of the inputs is used.

  The three frames: the two kernel programs' are the generated frame certificates; the reference's is its run
  with the result dropped. The idealization rewrote nothing.
-/
import proofs.«126051_j44968307589409_1_alg».proof.Defs
import proofs.«126051_j44968307589409_1_alg».proof.Proof.Gen.Kernel
import proofs.«126051_j44968307589409_1_alg».proof.Proof.Gen.Kernel.Skeleton
import proofs.«126051_j44968307589409_1_alg».proof.Proof.Gen.Kernel.Launch
import proofs.«126051_j44968307589409_1_alg».proof.Proof.Gen.Kernel.Points
import proofs.«126051_j44968307589409_1_alg».proof.Proof.Gen.Kernel.Frame
import proofs.«126051_j44968307589409_1_alg».proof.Proof.Gen.KernelIdeal
import proofs.«126051_j44968307589409_1_alg».proof.Proof.Gen.KernelIdeal.Skeleton
import proofs.«126051_j44968307589409_1_alg».proof.Proof.Gen.KernelIdeal.Launch
import proofs.«126051_j44968307589409_1_alg».proof.Proof.Gen.KernelIdeal.Points
import proofs.«126051_j44968307589409_1_alg».proof.Proof.Gen.KernelIdeal.Frame
import proofs.«126051_j44968307589409_1_alg».proof.Proof.Gen.ReferenceIdeal
import proofs.«126051_j44968307589409_1_alg».proof.Proof.Gen.Pre_finite_inputs
import proofs.«126051_j44968307589409_1_alg».proof.Proof.KernelRun
import proofs.«126051_j44968307589409_1_alg».proof.Proof.Glue
import proofs.«126051_j44968307589409_1_alg».proof.Proof.RefResult
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.RefResult.run m ρ)

/-- From memories that agree on the six arguments, both programs end with the reference's last stage of the kernel
    program's argument arrays in their result buffers. -/
theorem algebraic : Cert.algebraic_KernelIdeal_ReferenceIdeal := by
  intro m ρ m' ρ' _ hagree
  refine ⟨fun c => Cert.ReferenceIdeal.ReadP.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run (Cert.KernelIdeal.defs (F := Ideal)) _ _).mono
      (fun r h c => ⟨(h c).1.trans (Cert.KernelIdeal.Glue.W9_v61 m ρ c), (h c).2⟩)
      (Cert.KernelIdeal.Gen.run_named (F := Ideal) m ρ)
  · refine (θ_run (Cert.ReferenceIdeal.defs (F := Ideal)) _ _).mono (fun r h c => ⟨(h c).1.trans ?_, (h c).2⟩)
      (Cert.ReferenceIdeal.RefResult.run m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
